-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg7 : FVec F S40 .f32) (main_v33 : IVec S_ 1) : IVec S_ 1 :=
  let main_v34 : FVec F S40 .f32 := Host.absf main_arg7
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x40 .f32) (main_arg7 : FVec F S40 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x40 .f32 := Host.absf main_arg6
  let main_cst_10 : FVec F S_ .f32 := constant S_ .f32 0x7F800000#32
  let main_v30 : FVec F S512x40 .f32 := broadcastInDim S512x40 ![] bcast_S_S512x40 main_cst_10
  let main_v31 : IVec S512x40 1 := cmpf .olt main_v29 main_v30
  let main_c_11 : IVec S_ 1 := constantI S_ 1 1#1
  let main_v32 : IVec S_ 1 := (fun x v => Host.reduce IntOp.andi x v reducesTo_S512x40_S_d0_1 h_S_) main_v31 main_c_11
  let main_v33 : IVec S_ 1 := andi main_v28 main_v32
  fn_part2 (F := F) main_arg7 main_v33

def fn {F : FTy → Type} [FloatOps F] (main_arg0 : FVec F S10000x512 .f32) (main_arg1 : FVec F S10000x10000 .f32) (main_arg2 : FVec F S512x512 .f32) (main_arg3 : FVec F S512 .f32) (main_arg4 : FVec F S512x512 .f32) (main_arg5 : FVec F S512 .f32) (main_arg6 : FVec F S512x40 .f32) (main_arg7 : FVec F S40 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S1x512 : Shape := ⟨2, ![1, 512]⟩
abbrev S1x40 : Shape := ⟨2, ![1, 40]⟩
abbrev S400x10000 : Shape := ⟨2, ![400, 10000]⟩
abbrev S400x512 : Shape := ⟨2, ![400, 512]⟩
abbrev S10000x40 : Shape := ⟨2, ![10000, 40]⟩
abbrev S400x40 : Shape := ⟨2, ![400, 40]⟩
abbrev S400 : Shape := ⟨1, ![400]⟩
abbrev S400x1 : Shape := ⟨2, ![400, 1]⟩

abbrev nBuf : Space → Nat
  | .hbm => 19
  | .vmem => 21
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x40, .f32⟩
  | .hbm, ⟨7, _⟩ => ⟨S40, .f32⟩
  | .hbm, ⟨8, _⟩ => ⟨S10000x10000, .bf16⟩
  | .hbm, ⟨9, _⟩ => ⟨S10000x512, .bf16⟩
  | .hbm, ⟨10, _⟩ => ⟨S512x512, .bf16⟩
  | .hbm, ⟨11, _⟩ => ⟨S512x512, .bf16⟩
  | .hbm, ⟨12, _⟩ => ⟨S512x40, .bf16⟩
  | .hbm, ⟨13, _⟩ => ⟨S1x512, .f32⟩
  | .hbm, ⟨14, _⟩ => ⟨S1x512, .f32⟩
  | .hbm, ⟨15, _⟩ => ⟨S1x40, .f32⟩
  | .hbm, ⟨16, _⟩ => ⟨S10000x512, .bf16⟩
  | .hbm, ⟨17, _⟩ => ⟨S10000x40, .bf16⟩
  | .hbm, ⟨18, _⟩ => ⟨S10000x40, .f32⟩
  | .local _ .vmem, ⟨0, _⟩ => ⟨S400x10000, .bf16⟩
  | .local _ .vmem, ⟨1, _⟩ => ⟨S400x10000, .bf16⟩
  | .local _ .vmem, ⟨2, _⟩ => ⟨S10000x512, .bf16⟩
  | .local _ .vmem, ⟨3, _⟩ => ⟨S512x512, .bf16⟩
  | .local _ .vmem, ⟨4, _⟩ => ⟨S1x512, .f32⟩
  | .local _ .vmem, ⟨5, _⟩ => ⟨S400x512, .bf16⟩
  | .local _ .vmem, ⟨6, _⟩ => ⟨S400x512, .bf16⟩
  | .local _ .vmem, ⟨7, _⟩ => ⟨S400x10000, .bf16⟩
  | .local _ .vmem, ⟨8, _⟩ => ⟨S400x10000, .bf16⟩
  | .local _ .vmem, ⟨9, _⟩ => ⟨S10000x512, .bf16⟩
  | .local _ .vmem, ⟨10, _⟩ => ⟨S512x512, .bf16⟩
  | .local _ .vmem, ⟨11, _⟩ => ⟨S1x512, .f32⟩
  | .local _ .vmem, ⟨12, _⟩ => ⟨S512x40, .bf16⟩
  | .local _ .vmem, ⟨13, _⟩ => ⟨S400x40, .bf16⟩
  | .local _ .vmem, ⟨14, _⟩ => ⟨S400x40, .bf16⟩
  | .local _ .vmem, ⟨15, _⟩ => ⟨S400x10000, .bf16⟩
  | .local _ .vmem, ⟨16, _⟩ => ⟨S400x10000, .bf16⟩
  | .local _ .vmem, ⟨17, _⟩ => ⟨S10000x40, .bf16⟩
  | .local _ .vmem, ⟨18, _⟩ => ⟨S1x40, .f32⟩
  | .local _ .vmem, ⟨19, _⟩ => ⟨S400x40, .f32⟩
  | .local _ .vmem, ⟨20, _⟩ => ⟨S400x40, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512x40 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x40 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x40 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S512_S1x512 : S512.ShapeCasts S1x512
  shapeCasts_S40_S1x40 : S40.ShapeCasts S1x40
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S400x512_S400x512_0_0 : ∀ a, (![0, 0] : Fin 2 → Nat) a + S400x512.size a ≤ S400x512.size a
  h_S400x512 : 0 < S400x512.numel
  packedbf16_S400x512_S400x512_0_0 : (Rect.unit (s := S400x512) ![0, 0] S400x512.size inb_S400x512_S400x512_0_0).PackedRows (EltTy.packing .bf16)
  inb_S512x40_S512x40_0_0 : ∀ a, (![0, 0] : Fin 2 → Nat) a + S512x40.size a ≤ S512x40.size a
  h_S512x40 : 0 < S512x40.numel
  shapeCasts_S512x40_S512x40 : S512x40.ShapeCasts S512x40
  inb_S400x40_S400x40_0_0 : ∀ a, (![0, 0] : Fin 2 → Nat) a + S400x40.size a ≤ S400x40.size a
  h_S400x40 : 0 < S400x40.numel
  packedbf16_S400x40_S400x40_0_0 : (Rect.unit (s := S400x40) ![0, 0] S400x40.size inb_S400x40_S400x40_0_0).PackedRows (EltTy.packing .bf16)
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S400x40 : S1x40.Broadcasts S400x40
  reduces_S400x40_S400 : S400x40.Reduces [1] S400
  shapeCasts_S400_S400x1 : S400.ShapeCasts S400x1
  broadcasts_S400x1_S400x40 : S400x1.Broadcasts S400x40
  dot_S400x10000_S10000x512_S400x512_1_0_0_1_n_n_wf : DotDims.WF S400x10000 S10000x512 S400x512 [1] [0] [0] [1] [] []
  dot_S400x512_S512x512_S400x512_1_0_0_1_n_n_wf : DotDims.WF S400x512 S512x512 S400x512 [1] [0] [0] [1] [] []
  dot_S400x512_S512x40_S400x40_1_0_0_1_n_n_wf : DotDims.WF S400x512 S512x40 S400x40 [1] [0] [0] [1] [] []
  dot_S400x10000_S10000x40_S400x40_1_0_0_1_n_n_wf : DotDims.WF S400x10000 S10000x40 S400x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .bf16 = 32 ∨ (Rect.block (s := S10000x10000) S400x10000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x512.size a ≤ S10000x512.size a
  hwx0_1 : ∀ i : grid0.Coords, EltTy.bits .bf16 = 32 ∨ (Rect.block (s := S10000x512) S10000x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x512.size a ≤ S10000x512.size a
  hwx0_4 : ∀ i : grid0.Coords, EltTy.bits .bf16 = 32 ∨ (Rect.block (s := S10000x512) S400x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x40.size a ≤ S512x40.size a
  hwx1_4 : ∀ i : grid1.Coords, EltTy.bits .bf16 = 32 ∨ (Rect.block (s := S512x40) S512x40.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x40.size a ≤ S10000x40.size a
  hwx1_5 : ∀ i : grid1.Coords, EltTy.bits .bf16 = 32 ∨ (Rect.block (s := S10000x40) S400x40.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S10000x40.size a
  hwx2_1 : ∀ i : grid2.Coords, EltTy.bits .bf16 = 32 ∨ (Rect.block (s := S10000x40) S10000x40.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x40.size a ≤ S10000x40.size a
  hwx2_3 : ∀ i : grid2.Coords, EltTy.bits .f32 = 32 ∨ (Rect.block (s := S10000x40) S400x40.size (cc2_transform_3 i) (hinb2_3 i)).WholeWords (EltTy.packing .f32)

variable [Facts₀]

def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x512_S512x40_S400x40_1_0_0_1_n_n : DotDims S400x512 S512x40 S400x40 where
  lhsContracting := [1]
  rhsContracting := [0]
  lhsNonContracting := [0]
  rhsNonContracting := [1]
  lhsBatch := []
  rhsBatch := []
  wf := dot_S400x512_S512x40_S400x40_1_0_0_1_n_n_wf
def dot_S400x10000_S10000x40_S400x40_1_0_0_1_n_n : DotDims S400x10000 S10000x40 S400x40 where
  lhsContracting := [1]
  rhsContracting := [0]
  lhsNonContracting := [0]
  rhsNonContracting := [1]
  lhsBatch := []
  rhsBatch := []
  wf := dot_S400x10000_S10000x40_S400x40_1_0_0_1_n_n_wf

abbrev win0_0 : Pipeline.Window sig grid0 :=
  Pipeline.Window.ofSpec (Memref.whole main_v0) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S10000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S400x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S512x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S400x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S10000x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S400x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S1x512 : Shape := ⟨2, ![1, 512]⟩
abbrev S_ : Shape := ⟨0, ![]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 44
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x40, .f32⟩
  | .hbm, ⟨7, _⟩ => ⟨S40, .f32⟩
  | .hbm, ⟨8, _⟩ => ⟨S10000x512, .f32⟩
  | .hbm, ⟨9, _⟩ => ⟨S10000x512, .f32⟩
  | .hbm, ⟨10, _⟩ => ⟨S1x512, .f32⟩
  | .hbm, ⟨11, _⟩ => ⟨S10000x512, .f32⟩
  | .hbm, ⟨12, _⟩ => ⟨S10000x512, .f32⟩
  | .hbm, ⟨13, _⟩ => ⟨S_, .f32⟩
  | .hbm, ⟨14, _⟩ => ⟨S10000x512, .f32⟩
  | .hbm, ⟨15, _⟩ => ⟨S10000x512, .f32⟩
  | .hbm, ⟨16, _⟩ => ⟨S10000x512, .f32⟩
  | .hbm, ⟨17, _⟩ => ⟨S10000x512, .f32⟩
  | .hbm, ⟨18, _⟩ => ⟨S1x512, .f32⟩
  | .hbm, ⟨19, _⟩ => ⟨S10000x512, .f32⟩
  | .hbm, ⟨20, _⟩ => ⟨S10000x512, .f32⟩
  | .hbm, ⟨21, _⟩ => ⟨S_, .f32⟩
  | .hbm, ⟨22, _⟩ => ⟨S10000x512, .f32⟩
  | .hbm, ⟨23, _⟩ => ⟨S10000x512, .f32⟩
  | .hbm, ⟨24, _⟩ => ⟨S10000x40, .f32⟩
  | .hbm, ⟨25, _⟩ => ⟨S10000x40, .f32⟩
  | .hbm, ⟨26, _⟩ => ⟨S1x40, .f32⟩
  | .hbm, ⟨27, _⟩ => ⟨S10000x40, .f32⟩
  | .hbm, ⟨28, _⟩ => ⟨S10000x40, .f32⟩
  | .hbm, ⟨29, _⟩ => ⟨S_, .f32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x40, .f32⟩
  | .hbm, ⟨36, _⟩ => ⟨S10000x40, .f32⟩
  | .hbm, ⟨37, _⟩ => ⟨S10000x40, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S10000x40, .f32⟩
  | .hbm, ⟨43, _⟩ => ⟨S10000x40, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v17 : Ref sig .tc := ⟨.hbm, 43, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []
  dot_S10000x512_S512x40_S10000x40_1_0_0_1_n_n_wf : DotDims.WF S10000x512 S512x40 S10000x40 [1] [0] [0] [1] [] []
  dot_S10000x10000_S10000x40_S10000x40_1_0_0_1_n_n_wf : DotDims.WF S10000x10000 S10000x40 S10000x40 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x40_S10000x40_1_0_0_1_n_n : DotDims S10000x512 S512x40 S10000x40 where
  lhsContracting := [1]
  rhsContracting := [0]
  lhsNonContracting := [0]
  rhsNonContracting := [1]
  lhsBatch := []
  rhsBatch := []
  wf := dot_S10000x512_S512x40_S10000x40_1_0_0_1_n_n_wf
def dot_S10000x10000_S10000x40_S10000x40_1_0_0_1_n_n : DotDims S10000x10000 S10000x40 S10000x40 where
  lhsContracting := [1]
  rhsContracting := [0]
  lhsNonContracting := [0]
  rhsNonContracting := [1]
  lhsBatch := []
  rhsBatch := []
  wf := dot_S10000x10000_S10000x40_S10000x40_1_0_0_1_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«156290_g90134183674392_cont_sun_m_86_2_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibBiasLayer.lean ====
/-
  A dense layer with a bias row, as plain functions of matrices of extended reals, and each way a program spells it.

  `affine x w b` is the `[a, N]` matrix whose entry `(r, q)` is the row product `∑ₖ x (r, k) · w (k, q)` plus the
  bias `b q`; `reluAffine x w b` clamps every entry of it at zero from below. Both are stated entry by entry, so
  they read the same on a block of rows and on the whole matrix: entry `(r, q)` depends on `x` only through its
  row `r` (`affine_congr`, `reluAffine_congr`).

  A vector program lays the bias `[N]` out as a row `[1, N]` by a shape cast and over the `a` rows by a
  broadcast; a host program does both steps by `broadcast_in_dim`. Either way the laid-out bias read at `(r, q)`
  is `b q` (`row_over_rows_apply`, `host_row_over_rows_apply`). With the matrix product into a zero accumulator,
  respectively the `dot_general`, read as the row product, the whole layer read at `(r, q)` at the ideal values is
  `affine` (`vector_affine_apply`, `host_affine_apply`), and followed by the maximum against a splat of zero it is
  `reluAffine` (`vector_reluAffine_apply`, `host_reluAffine_apply`).

  All are generic in the extents.
-/
import Idealize.ShloMosaic.Lib.Pipeline.Value
import Idealize.ShloMosaic.Lib.ValueIdx
import Idealize.ShloMosaic.Lib.ValueLayout
import Idealize.ShloMosaic.PureOps.Ideal.Laws
import proofs.«156290_g90134183674392_cont_sun_m_86_2_alg».proof.Proof.LibDenseLayer

noncomputable section

namespace Cert.BiasLayer

open Idealize.ShloMosaic Idealize.ShloMosaic.ValueIdx Cert.DenseLayer

/-- A vector of `n` extended reals, indexed as the arrays are. -/
abbrev Row (n : ℕ) : Type := (⟨1, ![n]⟩ : Shape).Idx → EReal

variable {a K N : ℕ}

/-! ## The layer -/

/-- `x · w + b`, entry by entry: at `(r, q)` the row product of row `r` with column `q`, plus `b q`. -/
def affine (x : Mat a K) (w : Mat K N) (b : Row N) : Mat a N :=
  fun i => prodRow x w (i 0) (i 1) + b (ix1 (i 1))

/-- `x · w + b` clamped at zero from below, entry by entry (the zero written as the word a program writes). -/
def reluAffine (x : Mat a K) (w : Mat K N) (b : Row N) : Mat a N :=
  fun i => max (affine x w b i) (Ideal.ofBits .f32 0x00000000#32)

theorem affine_apply (x : Mat a K) (w : Mat K N) (b : Row N) (r : Fin a) (q : Fin N) :
    affine x w b (ix2 r q) = prodRow x w r q + b (ix1 q) := rfl

theorem reluAffine_apply (x : Mat a K) (w : Mat K N) (b : Row N) (r : Fin a) (q : Fin N) :
    reluAffine x w b (ix2 r q) = max (affine x w b (ix2 r q)) (Ideal.ofBits .f32 0x00000000#32) := rfl

/-- An entry of the layer depends on the left matrix only through the entry's row. -/
theorem affine_congr {a' : ℕ} (x : Mat a K) (x' : Mat a' K) (w : Mat K N) (b : Row N) (r : Fin a) (r' : Fin a')
    (h : ∀ k, x (ix2 r k) = x' (ix2 r' k)) (q : Fin N) : affine x w b (ix2 r q) = affine x' w b (ix2 r' q) := by
  rw [affine_apply, affine_apply, prodRow_congr x x' w r r' h]

/-- The same for the clamped layer. -/
theorem reluAffine_congr {a' : ℕ} (x : Mat a K) (x' : Mat a' K) (w : Mat K N) (b : Row N) (r : Fin a) (r' : Fin a')
    (h : ∀ k, x (ix2 r k) = x' (ix2 r' k)) (q : Fin N) :
    reluAffine x w b (ix2 r q) = reluAffine x' w b (ix2 r' q) := by
  rw [reluAffine_apply, reluAffine_apply, affine_congr x x' w b r r' h q]

/-! ## The bias laid over the rows -/

variable {α : Type}

/-- A vector `[N]` cast to the row `[1, N]` reads, at `(u, q)`, the vector at `q`, whatever the unit coordinate. -/
theorem shapeCast_n_1n_apply (v : (⟨1, ![N]⟩ : Shape).Idx → α) (h : (⟨1, ![N]⟩ : Shape).ShapeCasts ⟨2, ![1, N]⟩)
    (u : Fin 1) (q : Fin N) : shapeCast ⟨2, ![1, N]⟩ v h (ix2 u q) = v (ix1 q) :=
  shapeCast_apply v h _ _ (by
    have hu : u.val = 0 := by omega
    rw [Shape.rowMajor_val_two, Shape.rowMajor_val_one]
    show q.val = u.val * N + q.val
    rw [hu, Nat.zero_mul, Nat.zero_add])

/-- A vector program's bias: the vector as a row, broadcast over `a` rows, is `v q` at `(r, q)`. -/
theorem row_over_rows_apply (v : (⟨1, ![N]⟩ : Shape).Idx → α) (hc : (⟨1, ![N]⟩ : Shape).ShapeCasts ⟨2, ![1, N]⟩)
    (hb : (⟨2, ![1, N]⟩ : Shape).Broadcasts ⟨2, ![a, N]⟩) (r : Fin a) (q : Fin N) :
    broadcastTo ⟨2, ![a, N]⟩ (shapeCast ⟨2, ![1, N]⟩ v hc) hb (ix2 r q) = v (ix1 q) :=
  (broadcastTo_1b_ab_apply _ hb r q).trans (shapeCast_n_1n_apply v hc 0 q)

/-- A host program's bias: the vector broadcast into the row `[1, N]` along its second axis, then over `a` rows,
    is `v q` at `(r, q)`. -/
theorem host_row_over_rows_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    broadcastInDim ⟨2, ![a, N]⟩ ![0, 1] h2 (broadcastInDim ⟨2, ![1, N]⟩ ![1] h1 v) (ix2 r q) = v (ix1 q) := by
  have hq : q.val = if N = 1 then 0 else q.val := by
    split
    · have := q.isLt; omega
    · rfl
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ => exact hq
  · match ax with
    | ⟨0, _⟩ => exact hq

/-- A host program's splat of a scalar constant reads that constant everywhere. -/
theorem host_splat_apply {s : Shape} (c : (⟨0, ![]⟩ : Shape).Idx → α) (h : (⟨0, ![]⟩ : Shape).BroadcastsInDim s ![])
    (i : s.Idx) : broadcastInDim s ![] h c i = c ix0 :=
  broadcastInDim_apply _ h c i ix0 fun ax => ax.elim0

/-! ## The layer as a vector program and as a host program spell it -/

section Spellings

variable {φ₁ φ₂ : FTy} {d : DotDims ⟨2, ![a, K]⟩ ⟨2, ![K, N]⟩ ⟨2, ![a, N]⟩}
  (x : FVec Ideal ⟨2, ![a, K]⟩ φ₁) (w : FVec Ideal ⟨2, ![K, N]⟩ φ₂) (b : FVec Ideal ⟨1, ![N]⟩ .f32)

/-- A vector program's product into the zero accumulator plus the laid-out bias is `affine`, entry by entry. -/
theorem vector_affine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    addf (matmul d prec x w (constant ⟨2, ![a, N]⟩ .f32 0x00000000#32))
        (broadcastTo ⟨2, ![a, N]⟩ (shapeCast ⟨2, ![1, N]⟩ b hc) hb) (ix2 r q)
      = affine x w b (ix2 r q) := by
  show FloatOps.matmul d prec x w (constant ⟨2, ![a, N]⟩ .f32 0x00000000#32) (ix2 r q)
      + broadcastTo ⟨2, ![a, N]⟩ (shapeCast ⟨2, ![1, N]⟩ b hc) hb (ix2 r q) = _
  rw [matmul_zero_apply hd, row_over_rows_apply]
  rfl

/-- Followed by the maximum against a splat of the zero word it is `reluAffine`. -/
theorem vector_reluAffine_apply (hd : PlainDot d) (prec : Option ContractPrecision) (hc : (⟨1, ![N]⟩ : Shape).ShapeCasts ⟨2, ![1, N]⟩)
    (hb : (⟨2, ![1, N]⟩ : Shape).Broadcasts ⟨2, ![a, N]⟩) (r : Fin a) (q : Fin N) :
    maximumf (addf (matmul d prec x w (constant ⟨2, ![a, N]⟩ .f32 0x00000000#32))
        (broadcastTo ⟨2, ![a, N]⟩ (shapeCast ⟨2, ![1, N]⟩ b hc) hb))
        (broadcast ⟨2, ![a, N]⟩ (Scalar.ofBits (F := Ideal) .f32 0x00000000#32)) (ix2 r q)
      = reluAffine x w b (ix2 r q) := by
  show max (addf (matmul d prec x w (constant ⟨2, ![a, N]⟩ .f32 0x00000000#32))
        (broadcastTo ⟨2, ![a, N]⟩ (shapeCast ⟨2, ![1, N]⟩ b hc) hb) (ix2 r q)) (Ideal.ofBits .f32 0x00000000#32) = _
  rw [vector_affine_apply x w b hd prec hc hb r q]
  rfl

/-- A host program's `dot_general` plus the laid-out bias is `affine`, entry by entry. -/
theorem host_affine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1]) (r : Fin a) (q : Fin N) :
    addf (Host.dotGeneral d prec x w)
        (broadcastInDim ⟨2, ![a, N]⟩ ![0, 1] h2 (broadcastInDim ⟨2, ![1, N]⟩ ![1] h1 b)) (ix2 r q)
      = affine x w b (ix2 r q) := by
  show FloatOps.dotGeneral d prec .single x w (ix2 r q)
      + broadcastInDim ⟨2, ![a, N]⟩ ![0, 1] h2 (broadcastInDim ⟨2, ![1, N]⟩ ![1] h1 b) (ix2 r q) = _
  rw [dotGeneral_apply hd, host_row_over_rows_apply]
  rfl

/-- Followed by the maximum against a host splat of the zero word it is `reluAffine`. -/
theorem host_reluAffine_apply (hd : PlainDot d) (prec : Option ContractPrecision)
    (h1 : (⟨1, ![N]⟩ : Shape).BroadcastsInDim ⟨2, ![1, N]⟩ ![1])
    (h2 : (⟨2, ![1, N]⟩ : Shape).BroadcastsInDim ⟨2, ![a, N]⟩ ![0, 1])
    (h0 : (⟨0, ![]⟩ : Shape).BroadcastsInDim ⟨2, ![a, N]⟩ ![]) (r : Fin a) (q : Fin N) :
    maximumf (addf (Host.dotGeneral d prec x w)
        (broadcastInDim ⟨2, ![a, N]⟩ ![0, 1] h2 (broadcastInDim ⟨2, ![1, N]⟩ ![1] h1 b)))
        (broadcastInDim ⟨2, ![a, N]⟩ ![] h0 (constant (F := Ideal) ⟨0, ![]⟩ .f32 0x00000000#32)) (ix2 r q)
      = reluAffine x w b (ix2 r q) := by
  show max (addf (Host.dotGeneral d prec x w)
        (broadcastInDim ⟨2, ![a, N]⟩ ![0, 1] h2 (broadcastInDim ⟨2, ![1, N]⟩ ![1] h1 b)) (ix2 r q))
      (broadcastInDim ⟨2, ![a, N]⟩ ![] h0 (constant (F := Ideal) ⟨0, ![]⟩ .f32 0x00000000#32) (ix2 r q)) = _
  rw [host_affine_apply x w b hd prec h1 h2 r q, host_splat_apply]
  rfl

end Spellings

end Cert.BiasLayer

end
-- ==== Proof.LibPropagationChain.lean ====
/-
  Three dense layers over one square propagation matrix, as plain functions of matrices of extended reals, in the two
  orders a program may multiply them, and the row-wise log-softmax in its two spellings.

  A propagation layer takes the node features `H : [n, K]`, a weight matrix `W : [K, N]`, a bias and the square
  matrix `A : [n, n]`, and returns `A · H · W + b`. The triple product can be bracketed `(A · H) · W` or
  `A · (H · W)`. On the extended reals multiplication does not distribute over addition at the infinities, so the two
  bracketings are proved equal only where every entry is a real number (`prodRow_assoc`): there both are the double
  sum `∑ₖ ∑ⱼ A (r, j) · H (j, k) · W (k, q)`, summed in either order. Real-valuedness is kept by sums, products,
  the maximum with a real and so by every layer (`IsReal.*`).

  The log-softmax of a row `z` is `z q − top − log ∑ⱼ exp (z j − top)` with `top` the row's maximum. One spelling
  subtracts `top + log ∑ …` at once, the other subtracts `top` and then the logarithm. For a real `z q` and a real
  `top` the two agree whatever the logarithm's value, since negation distributes over a sum with a real summand and
  addition is associative (`sub_add_eq_sub_sub_real`). The maximum of a non-empty real row, folded from `-∞`, is real
  (`rowFold_real`), and one more maximum against `-∞` changes nothing (`rowTop_eq_rowFold`).

  All are generic in the extents.
-/
import proofs.«156290_g90134183674392_cont_sun_m_86_2_alg».proof.Proof.LibBiasLayer

noncomputable section

namespace Cert.PropagationChain

open Idealize.ShloMosaic Idealize.ShloMosaic.ValueIdx Cert.DenseLayer Cert.BiasLayer

/-! ## Real-valued families -/

/-- Every entry is a real number (neither infinity). -/
def IsReal {ι : Type} (f : ι → EReal) : Prop := ∀ i, ∃ r : ℝ, f i = (r : EReal)

/-- The coercion of a finite real sum is the sum of the coercions. -/
theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A finite sum of reals is real. -/
theorem sum_real {ι : Type} (s : Finset ι) (f : ι → EReal) (hf : ∀ k, ∃ r : ℝ, f k = (r : EReal)) :
    ∃ r : ℝ, ∑ k ∈ s, f k = (r : EReal) := by
  choose g hg using hf
  exact ⟨∑ k ∈ s, g k, by rw [coe_sum]; exact Finset.sum_congr rfl fun k _ => hg k⟩

/-- A product of two reals is real. -/
theorem mul_real {x y : EReal} (hx : ∃ r : ℝ, x = (r : EReal)) (hy : ∃ r : ℝ, y = (r : EReal)) : ∃ r : ℝ, x * y = (r : EReal) := by
  obtain ⟨a, rfl⟩ := hx; obtain ⟨b, rfl⟩ := hy
  exact ⟨a * b, (EReal.coe_mul a b).symm⟩

/-- A sum of two reals is real. -/
theorem add_real {x y : EReal} (hx : ∃ r : ℝ, x = (r : EReal)) (hy : ∃ r : ℝ, y = (r : EReal)) : ∃ r : ℝ, x + y = (r : EReal) := by
  obtain ⟨a, rfl⟩ := hx; obtain ⟨b, rfl⟩ := hy
  exact ⟨a + b, (EReal.coe_add a b).symm⟩

/-- The maximum of two reals is real. -/
theorem max_real {x y : EReal} (hx : ∃ r : ℝ, x = (r : EReal)) (hy : ∃ r : ℝ, y = (r : EReal)) : ∃ r : ℝ, max x y = (r : EReal) := by
  obtain ⟨a, rfl⟩ := hx; obtain ⟨b, rfl⟩ := hy
  rcases le_total (a : EReal) (b : EReal) with h | h
  · exact ⟨b, max_eq_right h⟩
  · exact ⟨a, max_eq_left h⟩

/-- The word of `+0.0` denotes the real zero. -/
theorem zero_word_real : ∃ r : ℝ, Ideal.ofBits .f32 0x00000000#32 = (r : EReal) := ⟨0, by rw [Ideal.ofBits_zero_f32]; rfl⟩

/-! ## The whole product and its layers -/

variable {n J K N : ℕ}

/-- The product matrix `x · y`. -/
def mm (x : Mat n J) (y : Mat J K) : Mat n K := fun i => prodRow x y (i 0) (i 1)

theorem mm_apply (x : Mat n J) (y : Mat J K) (r : Fin n) (k : Fin K) : mm x y (ix2 r k) = prodRow x y r k := rfl

theorem prodRow_real {x : Mat n J} {y : Mat J K} (hx : IsReal x) (hy : IsReal y) (r : Fin n) (k : Fin K) :
    ∃ v : ℝ, prodRow x y r k = (v : EReal) :=
  sum_real _ _ fun j => mul_real (hx _) (hy _)

theorem IsReal.mm {x : Mat n J} {y : Mat J K} (hx : IsReal x) (hy : IsReal y) : IsReal (mm x y) :=
  fun i => prodRow_real hx hy (i 0) (i 1)

theorem IsReal.affine {x : Mat n J} {y : Mat J K} {b : Row K} (hx : IsReal x) (hy : IsReal y) (hb : IsReal b) :
    IsReal (affine x y b) :=
  fun i => add_real (prodRow_real hx hy (i 0) (i 1)) (hb _)

theorem IsReal.reluAffine {x : Mat n J} {y : Mat J K} {b : Row K} (hx : IsReal x) (hy : IsReal y) (hb : IsReal b) :
    IsReal (reluAffine x y b) :=
  fun i => max_real (IsReal.affine hx hy hb i) zero_word_real

/-- The two bracketings of a triple product of real matrices agree entry by entry: both are the double sum over the
    two contracted axes, taken in either order. -/
theorem prodRow_assoc (x : Mat n J) (y : Mat J K) (w : Mat K N) (hx : IsReal x) (hy : IsReal y) (hw : IsReal w)
    (r : Fin n) (q : Fin N) : prodRow (mm x y) w r q = prodRow x (mm y w) r q := by
  choose gx hgx using hx
  choose gy hgy using hy
  choose gw hgw using hw
  have hL : prodRow (mm x y) w r q
      = ((∑ k : Fin K, (∑ j : Fin J, gx (ix2 r j) * gy (ix2 j k)) * gw (ix2 k q) : ℝ) : EReal) := by
    show ∑ k : Fin K, (∑ j : Fin J, x (ix2 r j) * y (ix2 j k)) * w (ix2 k q) = _
    rw [coe_sum]
    refine Finset.sum_congr rfl fun k _ => ?_
    rw [EReal.coe_mul, coe_sum, hgw]
    refine congrArg (· * (gw (ix2 k q) : EReal)) (Finset.sum_congr rfl fun j _ => ?_)
    rw [EReal.coe_mul, hgx, hgy]
  have hR : prodRow x (mm y w) r q
      = ((∑ j : Fin J, gx (ix2 r j) * (∑ k : Fin K, gy (ix2 j k) * gw (ix2 k q)) : ℝ) : EReal) := by
    show ∑ j : Fin J, x (ix2 r j) * (∑ k : Fin K, y (ix2 j k) * w (ix2 k q)) = _
    rw [coe_sum]
    refine Finset.sum_congr rfl fun j _ => ?_
    rw [EReal.coe_mul, coe_sum, hgx]
    refine congrArg ((gx (ix2 r j) : EReal) * ·) (Finset.sum_congr rfl fun k _ => ?_)
    rw [EReal.coe_mul, hgy, hgw]
  rw [hL, hR]
  congr 1
  simp only [Finset.sum_mul, Finset.mul_sum]
  rw [Finset.sum_comm]
  exact Finset.sum_congr rfl fun j _ => Finset.sum_congr rfl fun k _ => mul_assoc _ _ _

/-- A propagation layer in either bracketing, over real matrices, is one matrix. -/
theorem reluAffine_assoc (x : Mat n J) (y : Mat J K) (w : Mat K N) (b : Row N) (hx : IsReal x) (hy : IsReal y)
    (hw : IsReal w) : reluAffine (mm x y) w b = reluAffine x (mm y w) b :=
  funext fun i =>
    congrArg (fun v : EReal => max (v + b (ix1 (i 1))) (Ideal.ofBits .f32 0x00000000#32))
      (prodRow_assoc x y w hx hy hw (i 0) (i 1))

/-! ## The row log-softmax -/

/-- The word of `-∞` denotes the bottom element. -/
theorem neg_inf_word : Ideal.ofBits .f32 0xFF800000#32 = (⊥ : EReal) := by simp [Ideal.ofBits, Ideal.ieee]

/-- The maximum of a row folded from `-∞` (the word a program writes). -/
def rowFold (z : Fin N → EReal) : EReal := Finset.univ.fold max (Ideal.ofBits .f32 0xFF800000#32) z

/-- One more maximum against `-∞` changes nothing. -/
theorem rowTop_eq_rowFold (z : Fin N → EReal) : rowTop z = rowFold z := by
  unfold rowTop rowFold
  rw [neg_inf_word]
  exact max_eq_right bot_le

/-- The maximum of real entries over a non-empty finite set, folded from `-∞`, is real. -/
theorem fold_max_real {ι : Type} (s : Finset ι) (hs : s.Nonempty) (f : ι → EReal) (hf : ∀ k, ∃ r : ℝ, f k = (r : EReal)) :
    ∃ r : ℝ, s.fold max (⊥ : EReal) f = (r : EReal) := by
  classical
  induction hs using Finset.Nonempty.cons_induction with
  | singleton a =>
    obtain ⟨v, hv⟩ := hf a
    exact ⟨v, by rw [Finset.fold_singleton, hv]; exact max_eq_left bot_le⟩
  | cons a s ha hs ih =>
    obtain ⟨v, hv⟩ := ih
    rw [Finset.fold_cons, hv]
    exact max_real (hf a) ⟨v, rfl⟩

theorem rowFold_real (hN : 0 < N) (z : Fin N → EReal) (hz : ∀ k, ∃ r : ℝ, z k = (r : EReal)) : ∃ r : ℝ, rowFold z = (r : EReal) := by
  unfold rowFold
  rw [neg_inf_word]
  exact fold_max_real _ ⟨⟨0, hN⟩, Finset.mem_univ _⟩ z hz

/-- For real `x` and `t` and any `l`: `x − (t + l) = (x − t) − l`. -/
theorem sub_add_eq_sub_sub_real (x t : ℝ) (l : EReal) : (x : EReal) - ((t : EReal) + l) = ((x : EReal) - (t : EReal)) - l := by
  rw [sub_eq_add_neg, sub_eq_add_neg, sub_eq_add_neg,
    EReal.neg_add (Or.inl (EReal.coe_ne_bot t)) (Or.inl (EReal.coe_ne_top t)), sub_eq_add_neg, add_assoc]

/-- The log-softmax of a row, the maximum and the logarithm subtracted together. -/
def logSoftmaxJoint (z : Fin N → EReal) (q : Fin N) : EReal :=
  z q - (rowFold z + Ideal.log (∑ j : Fin N, Ideal.exp (z j - rowFold z)))

/-- The log-softmax of a row, the maximum subtracted first and the logarithm (of the sum taken from the zero word)
    after. -/
def logSoftmaxShifted (z : Fin N → EReal) (q : Fin N) : EReal :=
  (z q - rowTop z) - Ideal.log (Ideal.ofBits .f32 0x00000000#32 + ∑ j : Fin N, Ideal.exp (z j - rowTop z))

/-- On a non-empty real row the two spellings agree. -/
theorem logSoftmax_spellings (hN : 0 < N) (z : Fin N → EReal) (hz : ∀ k, ∃ r : ℝ, z k = (r : EReal)) (q : Fin N) :
    logSoftmaxJoint z q = logSoftmaxShifted z q := by
  unfold logSoftmaxJoint logSoftmaxShifted
  rw [rowTop_eq_rowFold, Ideal.ofBits_zero_f32, zero_add]
  obtain ⟨t, ht⟩ := rowFold_real hN z hz
  obtain ⟨x, hx⟩ := hz q
  rw [ht, hx]
  exact sub_add_eq_sub_sub_real x t _

/-! ## The network in its two orders -/

/-- A bias stored as a one-row matrix, read as a row. -/
def rowOf (b : Mat 1 N) : Row N := fun j => b (ix2 (0 : Fin 1) (j 0))

theorem rowOf_apply (b : Mat 1 N) (q : Fin N) : rowOf b (ix1 q) = b (ix2 (0 : Fin 1) q) := rfl

/-- First layer, the propagation product taken first: `relu ((A · X) · W + b)`. -/
def layerFirst (A : Mat n n) (X : Mat n J) (W : Mat J K) (b : Mat 1 K) : Mat n K := reluAffine (mm A X) W (rowOf b)

/-- Second layer fused with the projection: `relu ((A · H) · W + b) · C`. -/
def layerProject (A : Mat n n) (H : Mat n J) (W : Mat J K) (b : Mat 1 K) (C : Mat K N) : Mat n N :=
  mm (reluAffine (mm A H) W (rowOf b)) C

/-- Last layer: the row log-softmax of `A · Z + b`, maximum and logarithm subtracted together. -/
def layerLogSoftmax (A : Mat n n) (Z : Mat n N) (b : Mat 1 N) : Mat n N :=
  fun i => logSoftmaxJoint (fun k => affine A Z (rowOf b) (ix2 (i 0) k)) (i 1)

/-- The reference network: each layer `relu (A · (H · W) + b)`, then `A · (H · C) + c` and the row log-softmax with
    the maximum subtracted first. -/
def reference (A : Mat n n) (X : Mat n J) (W0 : Mat J K) (b0 : Row K) (W1 : Mat K K) (b1 : Row K) (C : Mat K N) (c : Row N) : Mat n N :=
  fun i => logSoftmaxShifted
    (fun k => affine A (mm (reluAffine A (mm (reluAffine A (mm X W0) b0) W1) b1) C) c (ix2 (i 0) k)) (i 1)

/-- On real inputs the three fused layers compute the reference network. -/
theorem layers_eq_reference (hN : 0 < N) (A : Mat n n) (X : Mat n J) (W0 : Mat J K) (b0 : Mat 1 K) (W1 : Mat K K) (b1 : Mat 1 K)
    (C : Mat K N) (c : Mat 1 N) (hA : IsReal A) (hX : IsReal X) (hW0 : IsReal W0) (hb0 : IsReal b0) (hW1 : IsReal W1)
    (hb1 : IsReal b1) (hC : IsReal C) (hc : IsReal c) :
    layerLogSoftmax A (layerProject A (layerFirst A X W0 b0) W1 b1 C) c
      = reference A X W0 (rowOf b0) W1 (rowOf b1) C (rowOf c) := by
  have hb0' : IsReal (rowOf b0) := fun j => hb0 _
  have hb1' : IsReal (rowOf b1) := fun j => hb1 _
  have hc' : IsReal (rowOf c) := fun j => hc _
  have e1 : layerFirst A X W0 b0 = reluAffine A (mm X W0) (rowOf b0) := reluAffine_assoc A X W0 _ hA hX hW0
  have h1 : IsReal (reluAffine A (mm X W0) (rowOf b0)) := IsReal.reluAffine hA (IsReal.mm hX hW0) hb0'
  have e2 : reluAffine (mm A (reluAffine A (mm X W0) (rowOf b0))) W1 (rowOf b1)
      = reluAffine A (mm (reluAffine A (mm X W0) (rowOf b0)) W1) (rowOf b1) := reluAffine_assoc A _ W1 _ hA h1 hW1
  have h2 : IsReal (reluAffine A (mm (reluAffine A (mm X W0) (rowOf b0)) W1) (rowOf b1)) :=
    IsReal.reluAffine hA (IsReal.mm h1 hW1) hb1'
  funext i
  unfold layerLogSoftmax layerProject reference
  rw [e1, e2]
  exact logSoftmax_spellings hN _ (fun k => IsReal.affine hA (IsReal.mm h2 hC) hc' _) (i 1)

end Cert.PropagationChain

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«156290_g90134183674392_cont_sun_m_86_2_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.FirstLayer.lean ====
/-
  The first pallas_call: `H₁ = relu ((A · X) · W₀ + b₀)`, row block by row block.

  The grid has 25 points; point `t` reads rows `400 t … 400 t + 399` of the propagation matrix `A` (window 0), the
  whole feature matrix `X`, the whole weight matrix `W₀` and the bias stored as one row (windows 1 to 3), and writes
  rows `400 t … 400 t + 399` of the result (window 4). At `(p, q)` of its block the body leaves the row product of
  row `p` of `(A_block · X)` with column `q` of `W₀`, plus `b₀ q`, clamped at zero: the matrix products into zero
  accumulators are row products, the changes of float format are the identity on the extended reals. A row of a
  product depends on the left matrix only through that row, so the block's entry is the entry `(400 t + p, q)` of
  `layerFirst A X W₀ b₀` taken over the whole arrays. The 25 row blocks tile the result, so after the region the
  result array holds `layerFirst` of the arrays the region found.
-/
import proofs.«156290_g90134183674392_cont_sun_m_86_2_alg».proof.Proof.Gen.KernelIdeal.Frame
import proofs.«156290_g90134183674392_cont_sun_m_86_2_alg».proof.Proof.LibPropagationChain
import proofs.«156290_g90134183674392_cont_sun_m_86_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FirstLayer

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.DenseLayer Cert.BiasLayer Cert.PropagationChain

/-! ## The body's block at an index -/

theorem dotAX : PlainDot dot_S400x10000_S10000x512_S400x512_1_0_0_1_n_n := plainDot_of_axes _ rfl rfl rfl rfl rfl rfl
theorem dotHW : PlainDot dot_S400x512_S512x512_S400x512_1_0_0_1_n_n := plainDot_of_axes _ rfl rfl rfl rfl rfl rfl

/-- The stored value at `(p, q)`: `relu (((x₀ · x₁) · x₂) (p, q) + x₃ (0, q))`. -/
theorem payload_apply (x0 : Vec Ideal S400x10000 .bf16) (x1 : Vec Ideal S10000x512 .bf16) (x2 : Vec Ideal S512x512 .bf16)
    (x3 : Vec Ideal S1x512 .f32) (p : Fin 400) (q : Fin 512) :
    k0_pay1 x0 x1 x2 x3 (ix2 p q) = reluAffine (mm (n := 400) x0 x1) x2 (rowOf x3) (ix2 p q) := by
  unfold k0_pay1
  simp only [shapeCast_self]
  show max (FloatOps.matmul (F := Ideal) (φ₁ := .bf16) (φ₂ := .bf16) dot_S400x512_S512x512_S400x512_1_0_0_1_n_n none
        (FloatOps.matmul (F := Ideal) (φ₁ := .bf16) (φ₂ := .bf16) dot_S400x10000_S10000x512_S400x512_1_0_0_1_n_n none x0 x1 (constant (F := Ideal) S400x512 .f32 0x00000000#32))
        x2 (constant (F := Ideal) S400x512 .f32 0x00000000#32) (ix2 p q)
      + broadcastTo S400x512 x3 broadcasts_S1x512_S400x512 (ix2 p q)) (Ideal.ofBits .f32 0x00000000#32) = _
  have hin : (FloatOps.matmul (F := Ideal) (φ₁ := .bf16) (φ₂ := .bf16) dot_S400x10000_S10000x512_S400x512_1_0_0_1_n_n none x0 x1 (constant (F := Ideal) S400x512 .f32 0x00000000#32)
      : Mat 400 512) = mm (n := 400) x0 x1 := funext fun i => matmul_zero_apply dotAX none x0 x1 i
  rw [matmul_zero_apply dotHW, broadcastTo_1b_ab_apply, hin]
  rfl

/-- A block of 400 rows of `A` starting at row `400 t`, with the other operands whole, gives at `j` the entry of
    `layerFirst` over the whole arrays at the index `i` that `j` has in the array. -/
theorem block_eq (A : Mat 10000 10000) (X : Mat 10000 512) (W : Mat 512 512) (b : Mat 1 512)
    (x0 : Vec Ideal S400x10000 .bf16) (x1 : Vec Ideal S10000x512 .bf16) (x2 : Vec Ideal S512x512 .bf16) (x3 : Vec Ideal S1x512 .f32)
    (t : ℕ)
    (h0 : ∀ (p : Fin 400) (k : Fin 10000) (r : Fin 10000), r.val = t * 400 + p.val → x0 (ix2 p k) = A (ix2 r k))
    (h1 : x1 = X) (h2 : x2 = W) (h3 : x3 = b)
    (j : S400x512.Idx) (i : S10000x512.Idx) (hi0 : (i 0).val = t * 400 + (j 0).val) (hi1 : (i 1).val = (j 1).val) :
    k0_pay1 x0 x1 x2 x3 j = layerFirst A X W b i := by
  subst h1 h2 h3
  obtain ⟨p, q, rfl⟩ : ∃ (p : Fin 400) (q : Fin 512), j = ix2 p q := ⟨j 0, j 1, eq_ix2 j⟩
  obtain ⟨r, q', rfl⟩ : ∃ (r : Fin 10000) (q' : Fin 512), i = ix2 r q' := ⟨i 0, i 1, eq_ix2 i⟩
  have hq : q' = q := Fin.ext hi1
  subst hq
  rw [payload_apply]
  unfold layerFirst
  exact reluAffine_congr _ _ _ _ p r (fun k => congrFun (prodRow_congr x0 A x1 p r (fun k' => h0 p k' r hi0)) k) q'

/-! ## The windows' blocks at a point -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the whole ones at `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The arrays the region finds, at their literal types. -/
abbrev adj (c : Dev nD) : Mat 10000 10000 := V c main_v0
abbrev feat (c : Dev nD) : Mat 10000 512 := V c main_v1
abbrev wgt (c : Dev nD) : Mat 512 512 := V c main_v2
abbrev bias (c : Dev nD) : Mat 1 512 := V c main_v5

/-- What the result array holds after the region, as one function of the arrays the region finds. -/
abbrev whole (c : Dev nD) : Mat 10000 512 := layerFirst (adj V c) (feat V c) (wgt V c) (bias V c)

/-- WHAT POINT `t` WRITES BACK is block `t` of `whole`. -/
theorem flushed_eq (c : Dev nD) (t : Fin cfg0.N) :
    (dat0 V c).flushed 4 t = ((cfg0.win 4).blk t).view.read (Elt Ideal) (whole V c) := by
  show (cfg0.win 4).cut (grid0.coords t) ((dat0 V c).after 4 t) = _
  rw [after0_4]
  unfold out0_4
  rw [View.canon_unit_zero hz]
  simp only [View.ld_unit_zero (S := S400x10000) hz, View.ld_unit_zero (S := S10000x512) hz,
    View.ld_unit_zero (S := S512x512) hz, View.ld_unit_zero (S := S1x512) hz]
  obtain ⟨e00, e01, e10, e11, e20, e21, e30, e31, e40, e41⟩ := idx_facts t
  funext j
  show k0_pay1 (iblk0 V c 0 t) (iblk0 V c 1 t) (iblk0 V c 2 t) (iblk0 V c 3 t) j
    = layerFirst (adj V c) (feat V c) (wgt V c) (bias V c) (((cfg0.win 4).blk t).view.emb j)
  refine block_eq (adj V c) (feat V c) (wgt V c) (bias V c) (iblk0 V c 0 t) (iblk0 V c 1 t) (iblk0 V c 2 t) (iblk0 V c 3 t)
    t.val ?_ ?_ ?_ ?_ j (((cfg0.win 4).blk t).view.emb j) ?_ ?_
  · intro p k r hr
    show V c main_v0 (((cfg0.win 0).blk t).view.emb (ix2 p k)) = V c main_v0 (ix2 r k)
    refine congrArg (V c main_v0) (funext fun a => Fin.ext ?_)
    match a with
    | ⟨0, _⟩ => show win0_0.index t (0 : Fin 2) * 400 + 1 * p.val = r.val; omega
    | ⟨1, _⟩ => show win0_0.index t (1 : Fin 2) * 10000 + 1 * k.val = k.val; omega
  · funext y
    show V c main_v1 (((cfg0.win 1).blk t).view.emb y) = V c main_v1 y
    refine congrArg (V c main_v1) (funext fun a => Fin.ext ?_)
    match a with
    | ⟨0, _⟩ => show win0_1.index t (0 : Fin 2) * 10000 + 1 * (y 0).val = (y 0).val; omega
    | ⟨1, _⟩ => show win0_1.index t (1 : Fin 2) * 512 + 1 * (y 1).val = (y 1).val; omega
  · funext y
    show V c main_v2 (((cfg0.win 2).blk t).view.emb y) = V c main_v2 y
    refine congrArg (V c main_v2) (funext fun a => Fin.ext ?_)
    match a with
    | ⟨0, _⟩ => show win0_2.index t (0 : Fin 2) * 512 + 1 * (y 0).val = (y 0).val; omega
    | ⟨1, _⟩ => show win0_2.index t (1 : Fin 2) * 512 + 1 * (y 1).val = (y 1).val; omega
  · funext y
    show V c main_v5 (((cfg0.win 3).blk t).view.emb y) = V c main_v5 y
    refine congrArg (V c main_v5) (funext fun a => Fin.ext ?_)
    match a with
    | ⟨0, _⟩ => show win0_3.index t (0 : Fin 2) * 1 + 1 * (y 0).val = (y 0).val; omega
    | ⟨1, _⟩ => show win0_3.index t (1 : Fin 2) * 512 + 1 * (y 1).val = (y 1).val; omega
  · show win0_4.index t (0 : Fin 2) * 400 + 1 * (j 0).val = t.val * 400 + (j 0).val; omega
  · show win0_4.index t (1 : Fin 2) * 512 + 1 * (j 1).val = (j 1).val; omega

/-! ## The blocks tile the result -/

/-- An index of the result is in point `t`'s block iff each coordinate is in the block's range on its axis. -/
theorem mem_blk (t : Fin cfg0.N) (i : S10000x512.Idx) :
    i ∈ ((cfg0.win 4).blk t).view.set ↔ ∀ a : Fin 2, win0_4.index t a * S400x512.size a ≤ (i a).val ∧ (i a).val < win0_4.index t a * S400x512.size a + S400x512.size a := by
  show i ∈ ((View.whole main_v8).slice (win0_4.rect t)).set ↔ _
  rw [View.set_slice_whole, Rect.mem_set_unit]
  exact Iff.rfl

/-- Every index of the result lies in the block of the point `(row / 400)`. -/
theorem cover (i : S10000x512.Idx) : ∃ t : Fin cfg0.N, (cfg0.win 4).flush t = true ∧ i ∈ ((cfg0.win 4).blk t).view.set := by
  have hi0 : (i 0).val < 10000 := (i 0).isLt
  have hi1 : (i 1).val < 512 := (i 1).isLt
  let t : Fin cfg0.N := ⟨(i 0).val / 400, by show (i 0).val / 400 < 25; omega⟩
  obtain ⟨-, -, -, -, -, -, -, -, e40, e41⟩ := idx_facts t
  have ht : t.val = (i 0).val / 400 := rfl
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; omega
  | ⟨1, _⟩ => show win0_4.index t (1 : Fin 2) * 512 ≤ (i 1).val ∧ (i 1).val < win0_4.index t (1 : Fin 2) * 512 + 512; omega

/-- THE RESULT ARRAY after the region is `layerFirst` of the arrays the region found. -/
theorem final (c : Dev nD) : (dat0 V c).arrAt 4 cfg0.N = whole V c :=
  (dat0 V c).arrAt_eq_of_cover 4 (whole V c) (fun t _ => flushed_eq V c t) cover

end Cert.KernelIdeal.FirstLayer

end
-- ==== Proof.ProjectLayer.lean ====
/-
  The second pallas_call: `Z = relu ((A · H₁) · W₁ + b₁) · C`, row block by row block.

  Point `t` of the 25 reads rows `400 t … 400 t + 399` of `A` (window 0), the whole hidden features `H₁`, the
  whole `W₁`, the bias stored as one row and the whole projection `C` (windows 1 to 4), and writes the same rows of
  the result (window 5). The body's clamped part is the first call's body on these operands; it is then multiplied
  with `C` into a zero accumulator, a row product. A row of a product depends on the left matrix only through that
  row, twice over, so the block's entry `(p, q)` is the entry `(400 t + p, q)` of `layerProject A H₁ W₁ b₁ C` over the
  whole arrays; the row blocks tile the result.
-/
import proofs.«156290_g90134183674392_cont_sun_m_86_2_alg».proof.Proof.Gen.KernelIdeal.Frame
import proofs.«156290_g90134183674392_cont_sun_m_86_2_alg».proof.Proof.LibPropagationChain
import proofs.«156290_g90134183674392_cont_sun_m_86_2_alg».proof.Proof.LibPlainDot
import proofs.«156290_g90134183674392_cont_sun_m_86_2_alg».proof.Proof.FirstLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjectLayer

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.DenseLayer Cert.BiasLayer Cert.PropagationChain

/-! ## The body's block at an index -/

theorem dotHC : PlainDot dot_S400x512_S512x40_S400x40_1_0_0_1_n_n := plainDot_of_axes _ rfl rfl rfl rfl rfl rfl

/-- The stored value at `(p, q)`: row `p` of `relu ((x₀ · x₁) · x₂ + x₃)` times column `q` of `x₄`. -/
theorem payload_apply (x0 : Vec Ideal S400x10000 .bf16) (x1 : Vec Ideal S10000x512 .bf16) (x2 : Vec Ideal S512x512 .bf16)
    (x3 : Vec Ideal S1x512 .f32) (x4 : Vec Ideal S512x40 .bf16) (p : Fin 400) (q : Fin 40) :
    k1_pay1 x0 x1 x2 x3 x4 (ix2 p q) = prodRow (reluAffine (mm (n := 400) x0 x1) x2 (rowOf x3)) x4 p q := by
  unfold k1_pay1
  show FloatOps.matmul (F := Ideal) (φ₁ := .bf16) (φ₂ := .bf16) dot_S400x512_S512x40_S400x40_1_0_0_1_n_n none
      (k0_pay1 x0 x1 x2 x3) (shapeCast S512x40 x4 shapeCasts_S512x40_S512x40) (constant (F := Ideal) S400x40 .f32 0x00000000#32) (ix2 p q) = _
  have hin : (k0_pay1 x0 x1 x2 x3 : Mat 400 512) = reluAffine (mm (n := 400) x0 x1) x2 (rowOf x3) := funext fun i => by
    obtain ⟨p', k, rfl⟩ : ∃ (p' : Fin 400) (k : Fin 512), i = ix2 p' k := ⟨i 0, i 1, eq_ix2 i⟩
    exact FirstLayer.payload_apply x0 x1 x2 x3 p' k
  rw [shapeCast_self, matmul_zero_apply dotHC, hin]

/-- A block of 400 rows of `A` starting at row `400 t`, the other operands whole, gives at `j` the entry of
    `layerProject` over the whole arrays at the index `i` that `j` has in the array. -/
theorem block_eq (A : Mat 10000 10000) (H : Mat 10000 512) (W : Mat 512 512) (b : Mat 1 512) (C : Mat 512 40)
    (x0 : Vec Ideal S400x10000 .bf16) (x1 : Vec Ideal S10000x512 .bf16) (x2 : Vec Ideal S512x512 .bf16) (x3 : Vec Ideal S1x512 .f32)
    (x4 : Vec Ideal S512x40 .bf16) (t : ℕ)
    (h0 : ∀ (p : Fin 400) (k : Fin 10000) (r : Fin 10000), r.val = t * 400 + p.val → x0 (ix2 p k) = A (ix2 r k))
    (h1 : x1 = H) (h2 : x2 = W) (h3 : x3 = b) (h4 : x4 = C)
    (j : S400x40.Idx) (i : S10000x40.Idx) (hi0 : (i 0).val = t * 400 + (j 0).val) (hi1 : (i 1).val = (j 1).val) :
    k1_pay1 x0 x1 x2 x3 x4 j = layerProject A H W b C i := by
  subst h1 h2 h3 h4
  obtain ⟨p, q, rfl⟩ : ∃ (p : Fin 400) (q : Fin 40), j = ix2 p q := ⟨j 0, j 1, eq_ix2 j⟩
  obtain ⟨r, q', rfl⟩ : ∃ (r : Fin 10000) (q' : Fin 40), i = ix2 r q' := ⟨i 0, i 1, eq_ix2 i⟩
  have hq : q' = q := Fin.ext hi1
  subst hq
  rw [payload_apply]
  show _ = prodRow (reluAffine (mm A x1) x2 (rowOf x3)) x4 r q'
  exact congrFun (prodRow_congr _ _ x4 p r fun k =>
    reluAffine_congr _ _ _ _ p r (fun k' => congrFun (prodRow_congr x0 A x1 p r (fun k'' => h0 p k'' r hi0)) k') k) q'

/-! ## The windows' blocks at a point -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the whole ones at `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The arrays the region finds, at their literal types. -/
abbrev adj (c : Dev nD) : Mat 10000 10000 := V c main_v0
abbrev hid (c : Dev nD) : Mat 10000 512 := V c main_v8
abbrev wgt (c : Dev nD) : Mat 512 512 := V c main_v3
abbrev bias (c : Dev nD) : Mat 1 512 := V c main_v6
abbrev proj (c : Dev nD) : Mat 512 40 := V c main_v4

/-- What the result array holds after the region, as one function of the arrays the region finds. -/
abbrev whole (c : Dev nD) : Mat 10000 40 := layerProject (adj V c) (hid V c) (wgt V c) (bias V c) (proj V c)

/-- WHAT POINT `t` WRITES BACK is block `t` of `whole`. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero hz]
  simp only [View.ld_unit_zero (S := S400x10000) hz, View.ld_unit_zero (S := S10000x512) hz,
    View.ld_unit_zero (S := S512x512) hz, View.ld_unit_zero (S := S1x512) hz, View.ld_unit_zero (S := S512x40) hz]
  obtain ⟨e00, e01, e10, e11, e20, e21, e30, e31, e40, e41, e50, e51⟩ := idx_facts t
  funext j
  show k1_pay1 (iblk1 V c 0 t) (iblk1 V c 1 t) (iblk1 V c 2 t) (iblk1 V c 3 t) (iblk1 V c 4 t) j
    = layerProject (adj V c) (hid V c) (wgt V c) (bias V c) (proj V c) (((cfg1.win 5).blk t).view.emb j)
  refine block_eq (adj V c) (hid V c) (wgt V c) (bias V c) (proj V c)
    (iblk1 V c 0 t) (iblk1 V c 1 t) (iblk1 V c 2 t) (iblk1 V c 3 t) (iblk1 V c 4 t)
    t.val ?_ ?_ ?_ ?_ ?_ j (((cfg1.win 5).blk t).view.emb j) ?_ ?_
  · intro p k r hr
    show V c main_v0 (((cfg1.win 0).blk t).view.emb (ix2 p k)) = V c main_v0 (ix2 r k)
    refine congrArg (V c main_v0) (funext fun a => Fin.ext ?_)
    match a with
    | ⟨0, _⟩ => show win1_0.index t (0 : Fin 2) * 400 + 1 * p.val = r.val; omega
    | ⟨1, _⟩ => show win1_0.index t (1 : Fin 2) * 10000 + 1 * k.val = k.val; omega
  · funext y
    show V c main_v8 (((cfg1.win 1).blk t).view.emb y) = V c main_v8 y
    refine congrArg (V c main_v8) (funext fun a => Fin.ext ?_)
    match a with
    | ⟨0, _⟩ => show win1_1.index t (0 : Fin 2) * 10000 + 1 * (y 0).val = (y 0).val; omega
    | ⟨1, _⟩ => show win1_1.index t (1 : Fin 2) * 512 + 1 * (y 1).val = (y 1).val; omega
  · funext y
    show V c main_v3 (((cfg1.win 2).blk t).view.emb y) = V c main_v3 y
    refine congrArg (V c main_v3) (funext fun a => Fin.ext ?_)
    match a with
    | ⟨0, _⟩ => show win1_2.index t (0 : Fin 2) * 512 + 1 * (y 0).val = (y 0).val; omega
    | ⟨1, _⟩ => show win1_2.index t (1 : Fin 2) * 512 + 1 * (y 1).val = (y 1).val; omega
  · funext y
    show V c main_v6 (((cfg1.win 3).blk t).view.emb y) = V c main_v6 y
    refine congrArg (V c main_v6) (funext fun a => Fin.ext ?_)
    match a with
    | ⟨0, _⟩ => show win1_3.index t (0 : Fin 2) * 1 + 1 * (y 0).val = (y 0).val; omega
    | ⟨1, _⟩ => show win1_3.index t (1 : Fin 2) * 512 + 1 * (y 1).val = (y 1).val; omega
  · funext y
    show V c main_v4 (((cfg1.win 4).blk t).view.emb y) = V c main_v4 y
    refine congrArg (V c main_v4) (funext fun a => Fin.ext ?_)
    match a with
    | ⟨0, _⟩ => show win1_4.index t (0 : Fin 2) * 512 + 1 * (y 0).val = (y 0).val; omega
    | ⟨1, _⟩ => show win1_4.index t (1 : Fin 2) * 40 + 1 * (y 1).val = (y 1).val; omega
  · show win1_5.index t (0 : Fin 2) * 400 + 1 * (j 0).val = t.val * 400 + (j 0).val; omega
  · show win1_5.index t (1 : Fin 2) * 40 + 1 * (j 1).val = (j 1).val; omega

/-! ## The blocks tile the result -/

/-- An index of the result is in point `t`'s block iff each coordinate is in the block's range on its axis. -/
theorem mem_blk (t : Fin cfg1.N) (i : S10000x40.Idx) :
    i ∈ ((cfg1.win 5).blk t).view.set ↔ ∀ a : Fin 2, win1_5.index t a * S400x40.size a ≤ (i a).val ∧ (i a).val < win1_5.index t a * S400x40.size a + S400x40.size a := by
  show i ∈ ((View.whole main_v9).slice (win1_5.rect t)).set ↔ _
  rw [View.set_slice_whole, Rect.mem_set_unit]
  exact Iff.rfl

/-- Every index of the result lies in the block of the point `(row / 400)`. -/
theorem cover (i : S10000x40.Idx) : ∃ t : Fin cfg1.N, (cfg1.win 5).flush t = true ∧ i ∈ ((cfg1.win 5).blk t).view.set := by
  have hi0 : (i 0).val < 10000 := (i 0).isLt
  have hi1 : (i 1).val < 40 := (i 1).isLt
  let t : Fin cfg1.N := ⟨(i 0).val / 400, by show (i 0).val / 400 < 25; omega⟩
  obtain ⟨-, -, -, -, -, -, -, -, -, -, e50, e51⟩ := idx_facts t
  have ht : t.val = (i 0).val / 400 := rfl
  refine ⟨t, flush1_5 t, ?_⟩
  rw [mem_blk]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 40 ≤ (i 1).val ∧ (i 1).val < win1_5.index t (1 : Fin 2) * 40 + 40; omega

/-- THE RESULT ARRAY after the region is `layerProject` of the arrays the region found. -/
theorem final (c : Dev nD) : (dat1 V c).arrAt 5 cfg1.N = whole V c :=
  (dat1 V c).arrAt_eq_of_cover 5 (whole V c) (fun t _ => flushed_eq V c t) cover

end Cert.KernelIdeal.ProjectLayer

end
-- ==== Proof.LibRowLogSoftmax.lean ====
/-
  A vector program's row log-softmax, read at an index.

  Over an `[a, b]` matrix `z` of extended reals a vector program takes the row maxima by a reduction from `-∞`, sets
  them as a column `[a, 1]`, lays the column over the `b` columns, subtracts and exponentiates; it sums the
  exponentials along each row, sets the sums as a column, takes the logarithm, adds the column of maxima, lays the
  result over the columns and subtracts it from `z`. At `(p, q)` every laid-out column reads its entry of row `p`,
  the maximum is the fold of `max` over row `p` and the sum is the sum over row `p`, so the whole program at
  `(p, q)` is `logSoftmaxJoint` of row `p` at `q`.

  Generic in the extents.
-/
import proofs.«156290_g90134183674392_cont_sun_m_86_2_alg».proof.Proof.LibPropagationChain

noncomputable section

namespace Cert.PropagationChain

open Idealize.ShloMosaic Idealize.ShloMosaic.ValueIdx Cert.DenseLayer Cert.ColumnLayout

section VectorLogSoftmax

variable {a b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima, reduced from `-∞`, as a column. -/
def topCol : FVec Ideal ⟨2, ![a, 1]⟩ .f32 :=
  shapeCast ⟨2, ![a, 1]⟩ (multiReduction .maximumf [1] ⟨1, ![a]⟩ z 0xFF800000#32 hr hφ hmax) hc

/-- Its entry of row `p` is the maximum of row `p`. -/
theorem topCol_apply (p : Fin a) (u : Fin 1) : topCol z hr hc hφ hmax (ix2 p u) = rowFold (fun k => z (ix2 p k)) :=
  (shapeCast_a_a1_apply _ hc p u).trans (multiReduction_max_rows_apply z _ hr hφ hmax p)

/-- The exponentials of the entries minus their row's maximum. -/
def shiftedExp : FVec Ideal ⟨2, ![a, b]⟩ .f32 :=
  exp (subf z (broadcastTo ⟨2, ![a, b]⟩ (topCol z hr hc hφ hmax) hb))

theorem shiftedExp_apply (p : Fin a) (q : Fin b) :
    shiftedExp z hr hc hb hφ hmax (ix2 p q) = Ideal.exp (z (ix2 p q) - rowFold (fun k => z (ix2 p k))) := by
  show Ideal.exp (z (ix2 p q) - broadcastTo ⟨2, ![a, b]⟩ (topCol z hr hc hφ hmax) hb (ix2 p q)) = _
  rw [broadcastTo_a1_ab_apply, topCol_apply]

/-- The whole row log-softmax of a vector program is `logSoftmaxJoint` of the row, entry by entry. -/
theorem vector_logSoftmax_apply (p : Fin a) (q : Fin b) :
    subf z (broadcastTo ⟨2, ![a, b]⟩
        (addf (topCol z hr hc hφ hmax)
          (log (shapeCast ⟨2, ![a, 1]⟩
            (multiReduction .add [1] ⟨1, ![a]⟩ (shiftedExp z hr hc hb hφ hmax) 0x00000000#32 hr hφ hadd) hc))) hb) (ix2 p q)
      = logSoftmaxJoint (fun k => z (ix2 p k)) q := by
  show z (ix2 p q) - broadcastTo ⟨2, ![a, b]⟩
        (addf (topCol z hr hc hφ hmax)
          (log (shapeCast ⟨2, ![a, 1]⟩
            (multiReduction .add [1] ⟨1, ![a]⟩ (shiftedExp z hr hc hb hφ hmax) 0x00000000#32 hr hφ hadd) hc))) hb (ix2 p q) = _
  rw [broadcastTo_a1_ab_apply]
  show z (ix2 p q) - (topCol z hr hc hφ hmax (ix2 p (0 : Fin 1))
      + Ideal.log (shapeCast ⟨2, ![a, 1]⟩
          (multiReduction .add [1] ⟨1, ![a]⟩ (shiftedExp z hr hc hb hφ hmax) 0x00000000#32 hr hφ hadd) hc (ix2 p (0 : Fin 1)))) = _
  rw [topCol_apply, shapeCast_a_a1_apply, multiReduction_add_rows_apply]
  unfold logSoftmaxJoint
  simp only [shiftedExp_apply]

end VectorLogSoftmax

end Cert.PropagationChain

end
-- ==== Proof.SoftmaxLayer.lean ====
/-
  The third pallas_call: the row log-softmax of `A · Z + c`, row block by row block.

  Point `t` of the 25 reads rows `400 t … 400 t + 399` of `A` (window 0), the whole projected features `Z` and the
  bias stored as one row (windows 1 and 2), and writes the same rows of the result (window 3). The body forms the
  block's logits, a matrix product into a zero accumulator plus the bias laid over the rows, and then their row
  log-softmax, the row maximum and the logarithm of the row sum of exponentials subtracted together. Row `p` of the
  block's logits is row `400 t + p` of the logits over the whole arrays, so the block's entry `(p, q)` is the entry
  `(400 t + p, q)` of `layerLogSoftmax A Z c`; the row blocks tile the result.
-/
import proofs.«156290_g90134183674392_cont_sun_m_86_2_alg».proof.Proof.Gen.KernelIdeal.Frame
import proofs.«156290_g90134183674392_cont_sun_m_86_2_alg».proof.Proof.LibPropagationChain
import proofs.«156290_g90134183674392_cont_sun_m_86_2_alg».proof.Proof.LibPlainDot
import proofs.«156290_g90134183674392_cont_sun_m_86_2_alg».proof.Proof.LibRowLogSoftmax
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SoftmaxLayer

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.DenseLayer Cert.BiasLayer Cert.PropagationChain

/-! ## The body's block at an index -/

theorem dotAZ : PlainDot dot_S400x10000_S10000x40_S400x40_1_0_0_1_n_n := plainDot_of_axes _ rfl rfl rfl rfl rfl rfl

/-- The block's logits at `(p, k)`: `(x₀ · x₁) (p, k) + x₂ (0, k)`. -/
theorem logits_apply (x0 : Vec Ideal S400x10000 .bf16) (x1 : Vec Ideal S10000x40 .bf16) (x2 : Vec Ideal S1x40 .f32)
    (p : Fin 400) (k : Fin 40) :
    addf (matmul (F := Ideal) (φ₁ := .bf16) (φ₂ := .bf16) dot_S400x10000_S10000x40_S400x40_1_0_0_1_n_n none x0 x1
        (constant (F := Ideal) S400x40 .f32 0x00000000#32))
      (broadcastTo S400x40 x2 broadcasts_S1x40_S400x40) (ix2 p k) = affine (a := 400) x0 x1 (rowOf x2) (ix2 p k) := by
  show FloatOps.matmul (F := Ideal) (φ₁ := .bf16) (φ₂ := .bf16) dot_S400x10000_S10000x40_S400x40_1_0_0_1_n_n none x0 x1
        (constant (F := Ideal) S400x40 .f32 0x00000000#32) (ix2 p k)
      + broadcastTo S400x40 x2 broadcasts_S1x40_S400x40 (ix2 p k) = _
  rw [matmul_zero_apply dotAZ, broadcastTo_1b_ab_apply]
  rfl

/-- The stored value at `(p, q)`: the joint log-softmax of row `p` of the block's logits. -/
theorem payload_apply (x0 : Vec Ideal S400x10000 .bf16) (x1 : Vec Ideal S10000x40 .bf16) (x2 : Vec Ideal S1x40 .f32)
    (p : Fin 400) (q : Fin 40) :
    k2_pay1 x0 x1 x2 (ix2 p q) = logSoftmaxJoint (fun k => affine (a := 400) x0 x1 (rowOf x2) (ix2 p k)) q := by
  unfold k2_pay1
  simp only [shapeCast_self]
  refine (vector_logSoftmax_apply
    (addf (matmul (F := Ideal) (φ₁ := .bf16) (φ₂ := .bf16) dot_S400x10000_S10000x40_S400x40_1_0_0_1_n_n none x0 x1
        (constant (F := Ideal) S400x40 .f32 0x00000000#32)) (broadcastTo S400x40 x2 broadcasts_S1x40_S400x40))
    reduces_S400x40_S400 shapeCasts_S400_S400x1 broadcasts_S400x1_S400x40 (.inl rfl) rfl rfl p q).trans ?_
  exact congrArg (fun z : Fin 40 → EReal => logSoftmaxJoint z q) (funext fun k => logits_apply x0 x1 x2 p k)

/-- A block of 400 rows of `A` starting at row `400 t`, the other operands whole, gives at `j` the entry of
    `layerLogSoftmax` over the whole arrays at the index `i` that `j` has in the array. -/
theorem block_eq (A : Mat 10000 10000) (Z : Mat 10000 40) (b : Mat 1 40)
    (x0 : Vec Ideal S400x10000 .bf16) (x1 : Vec Ideal S10000x40 .bf16) (x2 : Vec Ideal S1x40 .f32) (t : ℕ)
    (h0 : ∀ (p : Fin 400) (k : Fin 10000) (r : Fin 10000), r.val = t * 400 + p.val → x0 (ix2 p k) = A (ix2 r k))
    (h1 : x1 = Z) (h2 : x2 = b)
    (j : S400x40.Idx) (i : S10000x40.Idx) (hi0 : (i 0).val = t * 400 + (j 0).val) (hi1 : (i 1).val = (j 1).val) :
    k2_pay1 x0 x1 x2 j = layerLogSoftmax A Z b i := by
  subst h1 h2
  obtain ⟨p, q, rfl⟩ : ∃ (p : Fin 400) (q : Fin 40), j = ix2 p q := ⟨j 0, j 1, eq_ix2 j⟩
  obtain ⟨r, q', rfl⟩ : ∃ (r : Fin 10000) (q' : Fin 40), i = ix2 r q' := ⟨i 0, i 1, eq_ix2 i⟩
  have hq : q' = q := Fin.ext hi1
  subst hq
  rw [payload_apply]
  show _ = logSoftmaxJoint (fun k => affine A x1 (rowOf x2) (ix2 r k)) q'
  exact congrArg (fun z : Fin 40 → EReal => logSoftmaxJoint z q')
    (funext fun k => affine_congr x0 A x1 (rowOf x2) p r (fun k' => h0 p k' r hi0) k)

/-! ## The windows' blocks at a point -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `(t, 0)`, the whole ones at `(0, 0)`. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The arrays the region finds, at their literal types. -/
abbrev adj (c : Dev nD) : Mat 10000 10000 := V c main_v0
abbrev feat (c : Dev nD) : Mat 10000 40 := V c main_v9
abbrev bias (c : Dev nD) : Mat 1 40 := V c main_v7

/-- What the result array holds after the region, as one function of the arrays the region finds. -/
abbrev whole (c : Dev nD) : Mat 10000 40 := layerLogSoftmax (adj V c) (feat V c) (bias V c)

/-- WHAT POINT `t` WRITES BACK is block `t` of `whole`. -/
theorem flushed_eq (c : Dev nD) (t : Fin cfg2.N) :
    (dat2 V c).flushed 3 t = ((cfg2.win 3).blk t).view.read (Elt Ideal) (whole V c) := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x40) hz, View.ld_unit_zero (S := S1x40) hz]
  obtain ⟨e00, e01, e10, e11, e20, e21, e30, e31⟩ := idx_facts t
  funext j
  show k2_pay1 (iblk2 V c 0 t) (iblk2 V c 1 t) (iblk2 V c 2 t) j
    = layerLogSoftmax (adj V c) (feat V c) (bias V c) (((cfg2.win 3).blk t).view.emb j)
  refine block_eq (adj V c) (feat V c) (bias V c) (iblk2 V c 0 t) (iblk2 V c 1 t) (iblk2 V c 2 t)
    t.val ?_ ?_ ?_ j (((cfg2.win 3).blk t).view.emb j) ?_ ?_
  · intro p k r hr
    show V c main_v0 (((cfg2.win 0).blk t).view.emb (ix2 p k)) = V c main_v0 (ix2 r k)
    refine congrArg (V c main_v0) (funext fun a => Fin.ext ?_)
    match a with
    | ⟨0, _⟩ => show win2_0.index t (0 : Fin 2) * 400 + 1 * p.val = r.val; omega
    | ⟨1, _⟩ => show win2_0.index t (1 : Fin 2) * 10000 + 1 * k.val = k.val; omega
  · funext y
    show V c main_v9 (((cfg2.win 1).blk t).view.emb y) = V c main_v9 y
    refine congrArg (V c main_v9) (funext fun a => Fin.ext ?_)
    match a with
    | ⟨0, _⟩ => show win2_1.index t (0 : Fin 2) * 10000 + 1 * (y 0).val = (y 0).val; omega
    | ⟨1, _⟩ => show win2_1.index t (1 : Fin 2) * 40 + 1 * (y 1).val = (y 1).val; omega
  · funext y
    show V c main_v7 (((cfg2.win 2).blk t).view.emb y) = V c main_v7 y
    refine congrArg (V c main_v7) (funext fun a => Fin.ext ?_)
    match a with
    | ⟨0, _⟩ => show win2_2.index t (0 : Fin 2) * 1 + 1 * (y 0).val = (y 0).val; omega
    | ⟨1, _⟩ => show win2_2.index t (1 : Fin 2) * 40 + 1 * (y 1).val = (y 1).val; omega
  · show win2_3.index t (0 : Fin 2) * 400 + 1 * (j 0).val = t.val * 400 + (j 0).val; omega
  · show win2_3.index t (1 : Fin 2) * 40 + 1 * (j 1).val = (j 1).val; omega

/-! ## The blocks tile the result -/

/-- An index of the result is in point `t`'s block iff each coordinate is in the block's range on its axis. -/
theorem mem_blk (t : Fin cfg2.N) (i : S10000x40.Idx) :
    i ∈ ((cfg2.win 3).blk t).view.set ↔ ∀ a : Fin 2, win2_3.index t a * S400x40.size a ≤ (i a).val ∧ (i a).val < win2_3.index t a * S400x40.size a + S400x40.size a := by
  show i ∈ ((View.whole main_v10).slice (win2_3.rect t)).set ↔ _
  rw [View.set_slice_whole, Rect.mem_set_unit]
  exact Iff.rfl

/-- Every index of the result lies in the block of the point `(row / 400)`. -/
theorem cover (i : S10000x40.Idx) : ∃ t : Fin cfg2.N, (cfg2.win 3).flush t = true ∧ i ∈ ((cfg2.win 3).blk t).view.set := by
  have hi0 : (i 0).val < 10000 := (i 0).isLt
  have hi1 : (i 1).val < 40 := (i 1).isLt
  let t : Fin cfg2.N := ⟨(i 0).val / 400, by show (i 0).val / 400 < 25; omega⟩
  obtain ⟨-, -, -, -, -, -, e30, e31⟩ := idx_facts t
  have ht : t.val = (i 0).val / 400 := rfl
  refine ⟨t, flush2_3 t, ?_⟩
  rw [mem_blk]
  intro a
  match a with
  | ⟨0, _⟩ => show win2_3.index t (0 : Fin 2) * 400 ≤ (i 0).val ∧ (i 0).val < win2_3.index t (0 : Fin 2) * 400 + 400; omega
  | ⟨1, _⟩ => show win2_3.index t (1 : Fin 2) * 40 ≤ (i 1).val ∧ (i 1).val < win2_3.index t (1 : Fin 2) * 40 + 40; omega

/-- THE RESULT ARRAY after the region is `layerLogSoftmax` of the arrays the region found. -/
theorem final (c : Dev nD) : (dat2 V c).arrAt 3 cfg2.N = whole V c :=
  (dat2 V c).arrAt_eq_of_cover 3 (whole V c) (fun t _ => flushed_eq V c t) cover

end Cert.KernelIdeal.SoftmaxLayer

end
-- ==== Proof.KernelNetwork.lean ====
/-
  The idealized kernel's result as one function of its arguments.

  @main converts five arguments to bf16 (the identity on the extended reals) and reshapes the three bias vectors to
  one-row matrices, then runs the three pallas_calls. Each region leaves its result array at its layer's function of
  the arrays it found (FirstLayer, ProjectLayer, SoftmaxLayer) and every other array as it found it: an input window's
  array is unchanged by the pipeline, and an array outside the region's windows is untouched. Reading the last
  region's result back through the three regions and the host operations gives
  `layerLogSoftmax A (layerProject A (layerFirst A X W₀ b₀) W₁ b₁ C) c` of the arguments.
-/
import proofs.«156290_g90134183674392_cont_sun_m_86_2_alg».proof.Proof.Gen.KernelIdeal.Frame
import proofs.«156290_g90134183674392_cont_sun_m_86_2_alg».proof.Proof.LibPropagationChain
import proofs.«156290_g90134183674392_cont_sun_m_86_2_alg».proof.Proof.LibPlainDot
import proofs.«156290_g90134183674392_cont_sun_m_86_2_alg».proof.Proof.ProjectLayer
import proofs.«156290_g90134183674392_cont_sun_m_86_2_alg».proof.Proof.SoftmaxLayer
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Network

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.DenseLayer Cert.BiasLayer Cert.PropagationChain
open Idealize.ShloMosaic.StableHlo

variable (m : (ℓ : Loc nD τ sig) → Buf (Elt Ideal) ℓ) (ρ : Dev nD → PrngReg)

/-! ## The arguments and the one-row biases, at their literal types -/

abbrev argX (c : Dev nD) : Mat 10000 512 := m ((c.tc : Thread nD τ).loc main_arg0)
abbrev argA (c : Dev nD) : Mat 10000 10000 := m ((c.tc : Thread nD τ).loc main_arg1)
abbrev argW0 (c : Dev nD) : Mat 512 512 := m ((c.tc : Thread nD τ).loc main_arg2)
abbrev argB0 (c : Dev nD) : Row 512 := m ((c.tc : Thread nD τ).loc main_arg3)
abbrev argW1 (c : Dev nD) : Mat 512 512 := m ((c.tc : Thread nD τ).loc main_arg4)
abbrev argB1 (c : Dev nD) : Row 512 := m ((c.tc : Thread nD τ).loc main_arg5)
abbrev argC (c : Dev nD) : Mat 512 40 := m ((c.tc : Thread nD τ).loc main_arg6)
abbrev argBc (c : Dev nD) : Row 40 := m ((c.tc : Thread nD τ).loc main_arg7)

/-- A bias vector as the one-row matrix the host reshapes it to. -/
abbrev oneRow {N : ℕ} (v : Row N) (h : (⟨1, ![N]⟩ : Shape).ShapeCasts ⟨2, ![1, N]⟩) : Mat 1 N := shapeCast ⟨2, ![1, N]⟩ v h

theorem rowOf_oneRow {N : ℕ} (v : Row N) (h : (⟨1, ![N]⟩ : Shape).ShapeCasts ⟨2, ![1, N]⟩) : rowOf (oneRow v h) = v :=
  funext fun j => (shapeCast_n_1n_apply v h 0 (j 0)).trans (congrArg v (eq_ix1 j).symm)

theorem isReal_oneRow {N : ℕ} (v : Row N) (h : (⟨1, ![N]⟩ : Shape).ShapeCasts ⟨2, ![1, N]⟩) (hv : IsReal v) : IsReal (oneRow v h) :=
  fun i => by
    obtain ⟨u, q, rfl⟩ : ∃ (u : Fin 1) (q : Fin N), i = ix2 u q := ⟨i 0, i 1, eq_ix2 i⟩
    obtain ⟨r, hr⟩ := hv (ix1 q)
    exact ⟨r, (shapeCast_n_1n_apply v h u q).trans hr⟩

/-! ## The contents the first region finds: the host operations read back -/

theorem entry_v0 (c : Dev nD) : (V1 m ρ c main_v0 : Mat 10000 10000) = argA m c := by
  show StableHlo.after hostOps0 (W0 m ρ c) (Proc.devRef .tc main_v0) = _
  after_results; rfl
theorem entry_v1 (c : Dev nD) : (V1 m ρ c main_v1 : Mat 10000 512) = argX m c := by
  show StableHlo.after hostOps0 (W0 m ρ c) (Proc.devRef .tc main_v1) = _
  after_results; rfl
theorem entry_v2 (c : Dev nD) : (V1 m ρ c main_v2 : Mat 512 512) = argW0 m c := by
  show StableHlo.after hostOps0 (W0 m ρ c) (Proc.devRef .tc main_v2) = _
  after_results; rfl
theorem entry_v3 (c : Dev nD) : (V1 m ρ c main_v3 : Mat 512 512) = argW1 m c := by
  show StableHlo.after hostOps0 (W0 m ρ c) (Proc.devRef .tc main_v3) = _
  after_results; rfl
theorem entry_v4 (c : Dev nD) : (V1 m ρ c main_v4 : Mat 512 40) = argC m c := by
  show StableHlo.after hostOps0 (W0 m ρ c) (Proc.devRef .tc main_v4) = _
  after_results; rfl
theorem entry_v5 (c : Dev nD) : (V1 m ρ c main_v5 : Mat 1 512) = oneRow (argB0 m c) shapeCasts_S512_S1x512 := by
  show StableHlo.after hostOps0 (W0 m ρ c) (Proc.devRef .tc main_v5) = _
  after_results; rfl
theorem entry_v6 (c : Dev nD) : (V1 m ρ c main_v6 : Mat 1 512) = oneRow (argB1 m c) shapeCasts_S512_S1x512 := by
  show StableHlo.after hostOps0 (W0 m ρ c) (Proc.devRef .tc main_v6) = _
  after_results; rfl
theorem entry_v7 (c : Dev nD) : (V1 m ρ c main_v7 : Mat 1 40) = oneRow (argBc m c) shapeCasts_S40_S1x40 := by
  show StableHlo.after hostOps0 (W0 m ρ c) (Proc.devRef .tc main_v7) = _
  after_results; rfl

/-! ## Through the first region -/

theorem exit0_v8 (c : Dev nD) : (V2 m ρ c main_v8 : Mat 10000 512)
    = layerFirst (argA m c) (argX m c) (argW0 m c) (oneRow (argB0 m c) shapeCasts_S512_S1x512) := by
  refine ((W2_arr m ρ c 4).trans (FirstLayer.final (V1 m ρ) c)).trans ?_
  show layerFirst (V1 m ρ c main_v0 : Mat 10000 10000) (V1 m ρ c main_v1 : Mat 10000 512) (V1 m ρ c main_v2 : Mat 512 512)
    (V1 m ρ c main_v5 : Mat 1 512) = _
  rw [entry_v0, entry_v1, entry_v2, entry_v5]
theorem exit0_v0 (c : Dev nD) : (V2 m ρ c main_v0 : Mat 10000 10000) = argA m c :=
  ((W2_arr m ρ c 0).trans (((dat0 (V1 m ρ) c).arrAt_in 0 rfl cfg0.N).trans (A_eq0 (V1 m ρ) c 0))).trans (entry_v0 m ρ c)
theorem exit0_v3 (c : Dev nD) : (V2 m ρ c main_v3 : Mat 512 512) = argW1 m c :=
  (W2_of_ne m ρ c main_v3 (by decide)).trans (entry_v3 m ρ c)
theorem exit0_v4 (c : Dev nD) : (V2 m ρ c main_v4 : Mat 512 40) = argC m c :=
  (W2_of_ne m ρ c main_v4 (by decide)).trans (entry_v4 m ρ c)
theorem exit0_v6 (c : Dev nD) : (V2 m ρ c main_v6 : Mat 1 512) = oneRow (argB1 m c) shapeCasts_S512_S1x512 :=
  (W2_of_ne m ρ c main_v6 (by decide)).trans (entry_v6 m ρ c)
theorem exit0_v7 (c : Dev nD) : (V2 m ρ c main_v7 : Mat 1 40) = oneRow (argBc m c) shapeCasts_S40_S1x40 :=
  (W2_of_ne m ρ c main_v7 (by decide)).trans (entry_v7 m ρ c)

/-! ## Through the second region -/

theorem exit1_v9 (c : Dev nD) : (V3 m ρ c main_v9 : Mat 10000 40)
    = layerProject (argA m c) (layerFirst (argA m c) (argX m c) (argW0 m c) (oneRow (argB0 m c) shapeCasts_S512_S1x512))
        (argW1 m c) (oneRow (argB1 m c) shapeCasts_S512_S1x512) (argC m c) := by
  refine ((W3_arr m ρ c 5).trans (ProjectLayer.final (V2 m ρ) c)).trans ?_
  show layerProject (V2 m ρ c main_v0 : Mat 10000 10000) (V2 m ρ c main_v8 : Mat 10000 512) (V2 m ρ c main_v3 : Mat 512 512)
    (V2 m ρ c main_v6 : Mat 1 512) (V2 m ρ c main_v4 : Mat 512 40) = _
  rw [exit0_v0, exit0_v8, exit0_v3, exit0_v6, exit0_v4]
theorem exit1_v0 (c : Dev nD) : (V3 m ρ c main_v0 : Mat 10000 10000) = argA m c :=
  ((W3_arr m ρ c 0).trans (((dat1 (V2 m ρ) c).arrAt_in 0 rfl cfg1.N).trans (A_eq1 (V2 m ρ) c 0))).trans (exit0_v0 m ρ c)
theorem exit1_v7 (c : Dev nD) : (V3 m ρ c main_v7 : Mat 1 40) = oneRow (argBc m c) shapeCasts_S40_S1x40 :=
  (W3_of_ne m ρ c main_v7 (by decide)).trans (exit0_v7 m ρ c)

/-! ## The result -/

/-- THE RESULT ARRAY after @main, as one function of the arguments. -/
theorem result_eq (c : Dev nD) : (W4 m ρ c (Proc.devRef .tc main_v10) : Mat 10000 40)
    = layerLogSoftmax (argA m c)
        (layerProject (argA m c) (layerFirst (argA m c) (argX m c) (argW0 m c) (oneRow (argB0 m c) shapeCasts_S512_S1x512))
          (argW1 m c) (oneRow (argB1 m c) shapeCasts_S512_S1x512) (argC m c))
        (oneRow (argBc m c) shapeCasts_S40_S1x40) := by
  refine ((W4_arr m ρ c 3).trans (SoftmaxLayer.final (V3 m ρ) c)).trans ?_
  show layerLogSoftmax (V3 m ρ c main_v0 : Mat 10000 10000) (V3 m ρ c main_v9 : Mat 10000 40) (V3 m ρ c main_v7 : Mat 1 40) = _
  rw [exit1_v0, exit1_v9, exit1_v7]

end Cert.KernelIdeal.Network

end
-- ==== Proof.RefNetwork.lean ====
/-
  The reference program's result, read at an index: it is `PropagationChain.reference` of the eight arguments.

  Each of the two hidden layers is `relu (A · (H · W) + b)`: a `dot_general` of the features with the weights, a
  `dot_general` of `A` with that product, the bias laid over the rows and the maximum against a splat of zero. The
  logits are `A · (H₂ · C) + c` spelt the same way. The row log-softmax takes the row's maximum by a reduction from
  `-∞` and once more against a splat of `-∞`, subtracts it, and subtracts the logarithm of the row sum of the
  exponentials, the sum taken from the zero word; the column of maxima and the column of logarithms are laid over the
  40 columns by two `broadcast_in_dim` each, so at `(r, q)` they read the row's value.
-/
import proofs.«156290_g90134183674392_cont_sun_m_86_2_alg».proof.Proof.RefRead
import proofs.«156290_g90134183674392_cont_sun_m_86_2_alg».proof.Proof.LibPropagationChain
import proofs.«156290_g90134183674392_cont_sun_m_86_2_alg».proof.Proof.LibPlainDot
import Idealize.ShloMosaic.Lib.ValueIdx
import Idealize.ShloMosaic.PureOps.Ideal.Laws

set_option maxRecDepth 16384

noncomputable section

namespace Cert.ReferenceIdeal.Network

open Cert.ReferenceIdeal Cert.ReferenceIdeal.Gen Cert.ReferenceIdeal.ReadP
open Idealize.ShloMosaic Idealize.ShloMosaic.ValueIdx
open Cert.DenseLayer Cert.BiasLayer Cert.PropagationChain

theorem dotXW : PlainDot dot_S10000x512_S512x512_S10000x512_1_0_0_1_n_n := plainDot_of_axes _ rfl rfl rfl rfl rfl rfl
theorem dotAH : PlainDot dot_S10000x10000_S10000x512_S10000x512_1_0_0_1_n_n := plainDot_of_axes _ rfl rfl rfl rfl rfl rfl
theorem dotHC : PlainDot dot_S10000x512_S512x40_S10000x40_1_0_0_1_n_n := plainDot_of_axes _ rfl rfl rfl rfl rfl rfl
theorem dotAZ : PlainDot dot_S10000x10000_S10000x40_S10000x40_1_0_0_1_n_n := plainDot_of_axes _ rfl rfl rfl rfl rfl rfl

/-- A host `dot_general` of a plain product is the product matrix. -/
theorem host_mm {a K N : ℕ} {d : DotDims ⟨2, ![a, K]⟩ ⟨2, ![K, N]⟩ ⟨2, ![a, N]⟩} (hd : PlainDot d) (x : Mat a K) (w : Mat K N) :
    (Host.dotGeneral (F := Ideal) (φ₁ := .f32) (φ₂ := .f32) d none x w : Mat a N) = mm x w :=
  funext fun i => dotGeneral_apply hd none .single x w i

variable (x0 : Mat 10000 512) (x1 : Mat 10000 10000) (x2 : Mat 512 512) (x3 : Row 512) (x4 : Mat 512 512) (x5 : Row 512)
  (x6 : Mat 512 40) (x7 : Row 40)

/-! ## The three affine stages -/

theorem hidden1 : val_main_v5 (F := Ideal) x0 x1 x2 x3 = reluAffine x1 (mm x0 x2) x3 := by
  funext i
  obtain ⟨r, q, rfl⟩ : ∃ (r : Fin 10000) (q : Fin 512), i = ix2 r q := ⟨i 0, i 1, eq_ix2 i⟩
  refine (host_reluAffine_apply x1 (Host.dotGeneral (F := Ideal) dot_S10000x512_S512x512_S10000x512_1_0_0_1_n_n none x0 x2) x3
    dotAH none bcast_S512_S1x512_1 bcast_S1x512_S10000x512_0_1 bcast_S_S10000x512 r q).trans ?_
  rw [host_mm dotXW]

theorem hidden2 : val_main_v11 (F := Ideal) x0 x1 x2 x3 x4 x5
    = reluAffine x1 (mm (val_main_v5 (F := Ideal) x0 x1 x2 x3) x4) x5 := by
  funext i
  obtain ⟨r, q, rfl⟩ : ∃ (r : Fin 10000) (q : Fin 512), i = ix2 r q := ⟨i 0, i 1, eq_ix2 i⟩
  refine (host_reluAffine_apply x1 (Host.dotGeneral (F := Ideal) dot_S10000x512_S512x512_S10000x512_1_0_0_1_n_n none
      (val_main_v5 (F := Ideal) x0 x1 x2 x3) x4) x5
    dotAH none bcast_S512_S1x512_1 bcast_S1x512_S10000x512_0_1 bcast_S_S10000x512 r q).trans ?_
  rw [host_mm dotXW]

theorem logits : val_main_v16 (F := Ideal) x0 x1 x2 x3 x4 x5 x6 x7
    = affine x1 (mm (val_main_v11 (F := Ideal) x0 x1 x2 x3 x4 x5) x6) x7 := by
  funext i
  obtain ⟨r, q, rfl⟩ : ∃ (r : Fin 10000) (q : Fin 40), i = ix2 r q := ⟨i 0, i 1, eq_ix2 i⟩
  refine (host_affine_apply x1 (Host.dotGeneral (F := Ideal) dot_S10000x512_S512x40_S10000x40_1_0_0_1_n_n none
      (val_main_v11 (F := Ideal) x0 x1 x2 x3 x4 x5) x6) x7
    dotAZ none bcast_S40_S1x40_1 bcast_S1x40_S10000x40_0_1 r q).trans ?_
  rw [host_mm dotHC]

/-! ## The row log-softmax -/

/-- Row `r` of the logits. -/
abbrev zrow (r : Fin 10000) : Fin 40 → EReal := fun k => val_main_v16 (F := Ideal) x0 x1 x2 x3 x4 x5 x6 x7 (ix2 r k)

/-- The column of row maxima at row `r`. -/
theorem top_apply (r : Fin 10000) : val_main_call2_v2 (F := Ideal) x0 x1 x2 x3 x4 x5 x6 x7 (ix1 r) = rowTop (zrow x0 x1 x2 x3 x4 x5 x6 x7 r) := by
  rw [val_main_call2_v2_apply, val_main_call2_v1_apply, val_main_call2_cst_0_apply]
  unfold val_main_call2_v0
  rw [hostReduce_max_rows_apply (val_main_v16 (F := Ideal) x0 x1 x2 x3 x4 x5 x6 x7) (val_main_call2_cst (F := Ideal))
    reducesTo_S10000x40_S10000_d1 (by decide) h_S_ r]
  rfl

/-- The maxima laid over the columns. -/
theorem topCols_apply (r : Fin 10000) (q : Fin 40) :
    val_main_call2_v4 (F := Ideal) x0 x1 x2 x3 x4 x5 x6 x7 (ix2 r q) = rowTop (zrow x0 x1 x2 x3 x4 x5 x6 x7 r) := by
  rw [val_main_call2_v4_apply, val_main_call2_v3_apply]
  have e : idx_main_call2_v3 (idx_main_call2_v4 (ix2 r q)) = ix1 r :=
    funext fun a => Fin.ext (by match a with | ⟨0, _⟩ => rfl)
  rw [e, top_apply]

/-- The shifted logits. -/
theorem shifted_apply (r : Fin 10000) (q : Fin 40) :
    val_main_call2_v5 (F := Ideal) x0 x1 x2 x3 x4 x5 x6 x7 (ix2 r q) = zrow x0 x1 x2 x3 x4 x5 x6 x7 r q - rowTop (zrow x0 x1 x2 x3 x4 x5 x6 x7 r) := by
  rw [val_main_call2_v5_apply, topCols_apply]
  rfl

/-- The row sums of the exponentials, taken from the zero word. -/
theorem expSum_apply (r : Fin 10000) :
    val_main_call2_v7 (F := Ideal) x0 x1 x2 x3 x4 x5 x6 x7 (ix1 r)
      = Ideal.ofBits .f32 0x00000000#32 + ∑ k : Fin 40, Ideal.exp (zrow x0 x1 x2 x3 x4 x5 x6 x7 r k - rowTop (zrow x0 x1 x2 x3 x4 x5 x6 x7 r)) := by
  rw [val_main_call2_v7_apply]
  refine congrArg (Ideal.ofBits .f32 0x00000000#32 + ·) (Finset.sum_congr rfl fun k _ => ?_)
  have e : idx_main_call2_v7 (ix1 r) k = ix2 r k :=
    funext fun a => Fin.ext (by match a with | ⟨0, _⟩ => rfl | ⟨1, _⟩ => rfl)
  rw [e, val_main_call2_v6_apply, shifted_apply]
  rfl

/-- The logarithms of the row sums laid over the columns. -/
theorem logCols_apply (r : Fin 10000) (q : Fin 40) :
    val_main_call2_v10 (F := Ideal) x0 x1 x2 x3 x4 x5 x6 x7 (ix2 r q)
      = Ideal.log (Ideal.ofBits .f32 0x00000000#32 + ∑ k : Fin 40, Ideal.exp (zrow x0 x1 x2 x3 x4 x5 x6 x7 r k - rowTop (zrow x0 x1 x2 x3 x4 x5 x6 x7 r))) := by
  rw [val_main_call2_v10_apply, val_main_call2_v9_apply, val_main_call2_v8_apply]
  have e : idx_main_call2_v8 (idx_main_call2_v10 (ix2 r q)) = ix1 r :=
    funext fun a => Fin.ext (by match a with | ⟨0, _⟩ => rfl)
  rw [e, expSum_apply]
  rfl

/-- The result at `(r, q)` is the shifted log-softmax of row `r` of the logits. -/
theorem result_apply (r : Fin 10000) (q : Fin 40) :
    val_main_v17 (F := Ideal) x0 x1 x2 x3 x4 x5 x6 x7 (ix2 r q) = logSoftmaxShifted (zrow x0 x1 x2 x3 x4 x5 x6 x7 r) q := by
  rw [val_main_v17_apply, shifted_apply, logCols_apply]
  rfl

/-- THE REFERENCE'S RESULT is the reference network of its arguments. -/
theorem result_eq : val_main_v17 (F := Ideal) x0 x1 x2 x3 x4 x5 x6 x7 = reference x1 x0 x2 x3 x4 x5 x6 x7 := by
  funext i
  obtain ⟨r, q, rfl⟩ : ∃ (r : Fin 10000) (q : Fin 40), i = ix2 r q := ⟨i 0, i 1, eq_ix2 i⟩
  rw [result_apply]
  unfold reference
  show logSoftmaxShifted (fun k => val_main_v16 (F := Ideal) x0 x1 x2 x3 x4 x5 x6 x7 (ix2 r k)) q = _
  rw [logits, hidden2, hidden1]

end Cert.ReferenceIdeal.Network

end
-- ==== Proof.FiniteInputs.lean ====
/-
  The precondition read: under `finite_inputs` every entry of every argument array is a real number.

  The printed predicate tests, array by array, `|x| < +∞` at every entry, folds each test by `and` over the whole
  array and conjoins the eight results. At the ideal values `|x|` is `max x (−x)` and the word `0x7F800000` is
  `+∞`, so an entry that passes is neither infinity: it is a real.
-/
import proofs.«156290_g90134183674392_cont_sun_m_86_2_alg».proof.Pre_finite_inputs
import proofs.«156290_g90134183674392_cont_sun_m_86_2_alg».proof.Proof.Gen.Pre_finite_inputs
import proofs.«156290_g90134183674392_cont_sun_m_86_2_alg».proof.Proof.LibPropagationChain
import Idealize.ShloMosaic.Lib.ReduceAll
import Idealize.ShloMosaic.Lib.Affine

noncomputable section

namespace Cert.FiniteInputs

open Idealize.ShloMosaic Idealize.ShloMosaic.ValueIdx Cert.PropagationChain Cert.Pre_finite_inputs

instance : Subsingleton Cert.Pre_finite_inputs.S_.Idx := ⟨fun a b => funext fun d => d.elim0⟩

/-- An extended real whose absolute value is below `+∞` is a real. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | coe r => exact ⟨r, rfl⟩
  | top => simp [Ideal.cmp] at h

/-- An array whose `all (|x| < +∞)` test is one is real-valued. -/
theorem isReal_of_all {s : Shape} {axes : List (Fin s.rank)} (x : FVec Ideal s .f32)
    (hb : (⟨0, ![]⟩ : Shape).BroadcastsInDim s ![]) (h' : s.ReducesTo axes S_) (init : S_.Idx → BitVec 1) (hu : 0 < S_.numel)
    (e : Host.reduce IntOp.andi (cmpf .olt (Host.absf x) (broadcastInDim s ![] hb (constant (F := Ideal) S_ .f32 0x7F800000#32))) init h' hu ix0 = 1#1) :
    IsReal x := fun i => by
  have h := Host.reduce_andi_all _ init h' hu ix0 e i
  refine real_of_abs_lt_inf (x i) ?_
  have hs : broadcastInDim s ![] hb (constant (F := Ideal) S_ .f32 0x7F800000#32) i = Ideal.ofBits .f32 0x7F800000#32 :=
    broadcastInDim_apply _ hb _ i ix0 fun ax => ax.elim0
  rw [← hs]
  exact h

/-- Under the precondition all eight arguments are real-valued. -/
theorem all_real (x0 : FVec Ideal S10000x512 .f32) (x1 : FVec Ideal S10000x10000 .f32) (x2 : FVec Ideal S512x512 .f32)
    (x3 : FVec Ideal S512 .f32) (x4 : FVec Ideal S512x512 .f32) (x5 : FVec Ideal S512 .f32) (x6 : FVec Ideal S512x40 .f32)
    (x7 : FVec Ideal S40 .f32) (h : fn (F := Ideal) x0 x1 x2 x3 x4 x5 x6 x7 = fun _ => 1#1) :
    IsReal x0 ∧ IsReal x1 ∧ IsReal x2 ∧ IsReal x3 ∧ IsReal x4 ∧ IsReal x5 ∧ IsReal x6 ∧ IsReal x7 := by
  have h0 := congrFun h ix0
  dsimp only [fn, fn_part1, fn_part2] at h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨isReal_of_all x0 _ _ _ _ e0, isReal_of_all x1 _ _ _ _ e1, isReal_of_all x2 _ _ _ _ e2, isReal_of_all x3 _ _ _ _ e3,
    isReal_of_all x4 _ _ _ _ e4, isReal_of_all x5 _ _ _ _ e5, isReal_of_all x6 _ _ _ _ e6, isReal_of_all x7 _ _ _ _ e7⟩

end Cert.FiniteInputs

end
-- ==== Proof.lean ====
/-
  A three-layer graph convolution with a dense propagation matrix, fused into three pallas_calls, against its jnp
  reference: `log_softmax (A · (relu (A · (relu (A · (X · W₀) + b₀) · W₁) + b₁) · C) + c)` over f32[10000, 40].

  The kernel converts `A`, `X` and the weights to bf16 (the identity on the extended reals), and multiplies in the
  other order: its first call computes `relu ((A · X) · W₀ + b₀)` and its second `relu ((A · H₁) · W₁ + b₁) · C`, so
  that the third contracts `A` against a 40-column operand. The reference computes `A · (H · W)` each time. On the
  extended reals the two bracketings of a triple product agree where every entry is real, which the precondition
  `finite_inputs` gives for the arguments and the layers keep (LibPropagationChain). The kernel's log-softmax
  subtracts `max + log Σ exp` at once, the reference's subtracts the maximum and then the logarithm: equal on a real
  non-empty row. Tilings, the order of sums and float formats play no part at the ideal values.

  The frames of the two kernel programs are the generated frame certificates; the reference's frame is its run with
  the result dropped. The idealization rewrote no operation, so there is nothing to preserve. For the value claim the
  kernel's run keeps its result array at the last region's contents (KernelRun), which KernelNetwork reads back
  through the three regions (FirstLayer, ProjectLayer, SoftmaxLayer) to a function of the arguments, and RefNetwork
  reads the reference's result as the same function.
-/
import proofs.«156290_g90134183674392_cont_sun_m_86_2_alg».proof.Defs
import proofs.«156290_g90134183674392_cont_sun_m_86_2_alg».proof.Proof.Gen.Kernel
import proofs.«156290_g90134183674392_cont_sun_m_86_2_alg».proof.Proof.Gen.Kernel.Skeleton
import proofs.«156290_g90134183674392_cont_sun_m_86_2_alg».proof.Proof.Gen.Kernel.Launch
import proofs.«156290_g90134183674392_cont_sun_m_86_2_alg».proof.Proof.Gen.Kernel.Points
import proofs.«156290_g90134183674392_cont_sun_m_86_2_alg».proof.Proof.Gen.Kernel.Frame
import proofs.«156290_g90134183674392_cont_sun_m_86_2_alg».proof.Proof.Gen.KernelIdeal
import proofs.«156290_g90134183674392_cont_sun_m_86_2_alg».proof.Proof.Gen.KernelIdeal.Skeleton
import proofs.«156290_g90134183674392_cont_sun_m_86_2_alg».proof.Proof.Gen.KernelIdeal.Launch
import proofs.«156290_g90134183674392_cont_sun_m_86_2_alg».proof.Proof.Gen.KernelIdeal.Points
import proofs.«156290_g90134183674392_cont_sun_m_86_2_alg».proof.Proof.Gen.KernelIdeal.Frame
import proofs.«156290_g90134183674392_cont_sun_m_86_2_alg».proof.Proof.Gen.ReferenceIdeal
import proofs.«156290_g90134183674392_cont_sun_m_86_2_alg».proof.Proof.Gen.Pre_finite_inputs
import proofs.«156290_g90134183674392_cont_sun_m_86_2_alg».proof.Proof.KernelRun
import proofs.«156290_g90134183674392_cont_sun_m_86_2_alg».proof.Proof.KernelNetwork
import proofs.«156290_g90134183674392_cont_sun_m_86_2_alg».proof.Proof.RefNetwork
import proofs.«156290_g90134183674392_cont_sun_m_86_2_alg».proof.Proof.FiniteInputs
import Idealize.ShloMosaic.Adequacy
import Idealize.ShloMosaic.Init

noncomputable section

namespace Cert.Proof

open Idealize.ShloMosaic Idealize.ShloMosaic.TcCoe Idealize.SL.Sem
open Cert.DenseLayer Cert.BiasLayer Cert.PropagationChain

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- The kernel's result array and the reference's are one function of arguments that agree: the three fused layers
    compute the reference network on real inputs. -/
theorem algebraic : Cert.algebraic_KernelIdeal_ReferenceIdeal := by
  intro m ρ m' ρ' hpre hagree
  refine ⟨fun c => Cert.KernelIdeal.Gen.W4 m ρ c (Proc.devRef .tc Cert.KernelIdeal.main_v10),
    Cert.KernelIdeal.GenP.run_main m ρ, ?_⟩
  refine (θ_run Cert.ReferenceIdeal.defs _ _).mono (fun _ h c => ⟨(h c).1.trans ?_, (h c).2⟩)
    (Cert.ReferenceIdeal.ValueP.run (F := Ideal) m' ρ')
  obtain ⟨hX, hA, hW0, hB0, hW1, hB1, hC, hBc⟩ := Cert.FiniteInputs.all_real _ _ _ _ _ _ _ _ (hpre c)
  obtain ⟨a0, a1, a2, a3, a4, a5, a6, a7⟩ := hagree c
  rw [Cert.ReferenceIdeal.ReadP.val_main_v17_eq, a0, a1, a2, a3, a4, a5, a6, a7]
  refine (Cert.ReferenceIdeal.Network.result_eq _ _ _ _ _ _ _ _).trans ?_
  refine Eq.trans ?_ (Cert.KernelIdeal.Network.result_eq m ρ c).symm
  rw [layers_eq_reference (by decide) _ _ _ _ _ _ _ _ hA hX hW0 (Cert.KernelIdeal.Network.isReal_oneRow _ _ hB0) hW1
    (Cert.KernelIdeal.Network.isReal_oneRow _ _ hB1) hC (Cert.KernelIdeal.Network.isReal_oneRow _ _ hBc),
    Cert.KernelIdeal.Network.rowOf_oneRow, Cert.KernelIdeal.Network.rowOf_oneRow, Cert.KernelIdeal.Network.rowOf_oneRow]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
